-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x890 : S_.BroadcastsInDim S512x890 (![] : Fin 0 → Fin S512x890.rank)
  reducesTo_S512x890_S_d0_1 : S512x890.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x890 .f32) (main_arg5 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x890 .f32 := Host.absf main_arg4
  let main_cst_6 : FVec F S_ .f32 := constant S_ .f32 0x7F800000#32
  let main_v20 : FVec F S512x890 .f32 := broadcastInDim S512x890 ![] bcast_S_S512x890 main_cst_6
  let main_v21 : IVec S512x890 1 := cmpf .olt main_v19 main_v20
  let main_c_7 : IVec S_ 1 := constantI S_ 1 1#1
  let main_v22 : IVec S_ 1 := (fun x v => Host.reduce IntOp.andi x v reducesTo_S512x890_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16384x512 .f32) (main_arg1 : FVec F S16384x26x128 .f32) (main_arg2 : FVec F S128x512 .f32) (main_arg3 : FVec F S128 .f32) (main_arg4 : FVec F S512x890 .f32) (main_arg5 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S512x128 : Shape := ⟨2, ![512, 128]⟩
abbrev S890x512 : Shape := ⟨2, ![890, 512]⟩
abbrev S1x128 : Shape := ⟨2, ![1, 128]⟩
abbrev S1x512 : Shape := ⟨2, ![1, 512]⟩
abbrev S512x512 : Shape := ⟨2, ![512, 512]⟩
abbrev S512x26x128 : Shape := ⟨3, ![512, 26, 128]⟩
abbrev S512x1x128 : Shape := ⟨3, ![512, 1, 128]⟩
abbrev S512x27x128 : Shape := ⟨3, ![512, 27, 128]⟩
abbrev S512x27x27 : Shape := ⟨3, ![512, 27, 27]⟩
abbrev S512x1x1 : Shape := ⟨3, ![512, 1, 1]⟩
abbrev S512x1 : Shape := ⟨2, ![512, 1]⟩
abbrev S512x1x2 : Shape := ⟨3, ![512, 1, 2]⟩
abbrev S512x2 : Shape := ⟨2, ![512, 2]⟩
abbrev S512x1x3 : Shape := ⟨3, ![512, 1, 3]⟩
abbrev S512x3 : Shape := ⟨2, ![512, 3]⟩
abbrev S512x1x4 : Shape := ⟨3, ![512, 1, 4]⟩
abbrev S512x4 : Shape := ⟨2, ![512, 4]⟩
abbrev S512x1x5 : Shape := ⟨3, ![512, 1, 5]⟩
abbrev S512x5 : Shape := ⟨2, ![512, 5]⟩
abbrev S512x1x6 : Shape := ⟨3, ![512, 1, 6]⟩
abbrev S512x6 : Shape := ⟨2, ![512, 6]⟩
abbrev S512x1x7 : Shape := ⟨3, ![512, 1, 7]⟩
abbrev S512x7 : Shape := ⟨2, ![512, 7]⟩
abbrev S512x1x8 : Shape := ⟨3, ![512, 1, 8]⟩
abbrev S512x8 : Shape := ⟨2, ![512, 8]⟩
abbrev S512x1x9 : Shape := ⟨3, ![512, 1, 9]⟩
abbrev S512x9 : Shape := ⟨2, ![512, 9]⟩
abbrev S512x1x10 : Shape := ⟨3, ![512, 1, 10]⟩
abbrev S512x10 : Shape := ⟨2, ![512, 10]⟩
abbrev S512x1x11 : Shape := ⟨3, ![512, 1, 11]⟩
abbrev S512x11 : Shape := ⟨2, ![512, 11]⟩
abbrev S512x1x12 : Shape := ⟨3, ![512, 1, 12]⟩
abbrev S512x12 : Shape := ⟨2, ![512, 12]⟩
abbrev S512x1x13 : Shape := ⟨3, ![512, 1, 13]⟩
abbrev S512x13 : Shape := ⟨2, ![512, 13]⟩
abbrev S512x1x14 : Shape := ⟨3, ![512, 1, 14]⟩
abbrev S512x14 : Shape := ⟨2, ![512, 14]⟩
abbrev S512x1x15 : Shape := ⟨3, ![512, 1, 15]⟩
abbrev S512x15 : Shape := ⟨2, ![512, 15]⟩
abbrev S512x1x16 : Shape := ⟨3, ![512, 1, 16]⟩
abbrev S512x16 : Shape := ⟨2, ![512, 16]⟩
abbrev S512x1x17 : Shape := ⟨3, ![512, 1, 17]⟩
abbrev S512x17 : Shape := ⟨2, ![512, 17]⟩
abbrev S512x1x18 : Shape := ⟨3, ![512, 1, 18]⟩
abbrev S512x18 : Shape := ⟨2, ![512, 18]⟩
abbrev S512x1x19 : Shape := ⟨3, ![512, 1, 19]⟩
abbrev S512x19 : Shape := ⟨2, ![512, 19]⟩
abbrev S512x1x20 : Shape := ⟨3, ![512, 1, 20]⟩
abbrev S512x20 : Shape := ⟨2, ![512, 20]⟩
abbrev S512x1x21 : Shape := ⟨3, ![512, 1, 21]⟩
abbrev S512x21 : Shape := ⟨2, ![512, 21]⟩
abbrev S512x1x22 : Shape := ⟨3, ![512, 1, 22]⟩
abbrev S512x22 : Shape := ⟨2, ![512, 22]⟩
abbrev S512x1x23 : Shape := ⟨3, ![512, 1, 23]⟩
abbrev S512x23 : Shape := ⟨2, ![512, 23]⟩
abbrev S512x1x24 : Shape := ⟨3, ![512, 1, 24]⟩
abbrev S512x24 : Shape := ⟨2, ![512, 24]⟩
abbrev S512x1x25 : Shape := ⟨3, ![512, 1, 25]⟩
abbrev S512x25 : Shape := ⟨2, ![512, 25]⟩
abbrev S512x1x26 : Shape := ⟨3, ![512, 1, 26]⟩
abbrev S512x26 : Shape := ⟨2, ![512, 26]⟩
abbrev S512x1x27 : Shape := ⟨3, ![512, 1, 27]⟩
abbrev S512x27 : Shape := ⟨2, ![512, 27]⟩
abbrev S512x378 : Shape := ⟨2, ![512, 378]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x26x128, .f32⟩
  | .hbm, ⟨2, _⟩ => ⟨S128x512, .f32⟩
  | .hbm, ⟨3, _⟩ => ⟨S128, .f32⟩
  | .hbm, ⟨4, _⟩ => ⟨S512x890, .f32⟩
  | .hbm, ⟨5, _⟩ => ⟨S512, .f32⟩
  | .hbm, ⟨6, _⟩ => ⟨S512x128, .f32⟩
  | .hbm, ⟨7, _⟩ => ⟨S890x512, .f32⟩
  | .hbm, ⟨8, _⟩ => ⟨S1x128, .f32⟩
  | .hbm, ⟨9, _⟩ => ⟨S1x512, .f32⟩
  | .hbm, ⟨10, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x26x128, .f32⟩
  | .local _ .vmem, ⟨3, _⟩ => ⟨S512x26x128, .f32⟩
  | .local _ .vmem, ⟨4, _⟩ => ⟨S512x128, .f32⟩
  | .local _ .vmem, ⟨5, _⟩ => ⟨S1x128, .f32⟩
  | .local _ .vmem, ⟨6, _⟩ => ⟨S890x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S890x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x512_S512x128_1_0 : S128x512.Transposes [1, 0] S512x128
  transposes_S512x890_S890x512_1_0 : S512x890.Transposes [1, 0] S890x512
  shapeCasts_S128_S1x128 : S128.ShapeCasts S1x128
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x26x128_S512x26x128_0_0_0 : ∀ a, (![0, 0, 0] : Fin 3 → Nat) a + S512x26x128.size a ≤ S512x26x128.size a
  h_S512x26x128 : 0 < S512x26x128.numel
  shapeCasts_S512x128_S512x1x128 : S512x128.ShapeCasts S512x1x128
  concatenates_S512x1x128_S512x26x128_S512x27x128_d1 : Shape.Concatenates [S512x1x128, S512x26x128] S512x27x128 1
  slices_S512x27x27_o0_0_0_S512x1x1 : S512x27x27.Slices ![0, 0, 0] S512x1x1
  shapeCasts_S512x1x1_S512x1 : S512x1x1.ShapeCasts S512x1
  slices_S512x27x27_o0_1_0_S512x1x2 : S512x27x27.Slices ![0, 1, 0] S512x1x2
  shapeCasts_S512x1x2_S512x2 : S512x1x2.ShapeCasts S512x2
  slices_S512x27x27_o0_2_0_S512x1x3 : S512x27x27.Slices ![0, 2, 0] S512x1x3
  shapeCasts_S512x1x3_S512x3 : S512x1x3.ShapeCasts S512x3
  slices_S512x27x27_o0_3_0_S512x1x4 : S512x27x27.Slices ![0, 3, 0] S512x1x4
  shapeCasts_S512x1x4_S512x4 : S512x1x4.ShapeCasts S512x4
  slices_S512x27x27_o0_4_0_S512x1x5 : S512x27x27.Slices ![0, 4, 0] S512x1x5
  shapeCasts_S512x1x5_S512x5 : S512x1x5.ShapeCasts S512x5
  slices_S512x27x27_o0_5_0_S512x1x6 : S512x27x27.Slices ![0, 5, 0] S512x1x6
  shapeCasts_S512x1x6_S512x6 : S512x1x6.ShapeCasts S512x6
  slices_S512x27x27_o0_6_0_S512x1x7 : S512x27x27.Slices ![0, 6, 0] S512x1x7
  shapeCasts_S512x1x7_S512x7 : S512x1x7.ShapeCasts S512x7
  slices_S512x27x27_o0_7_0_S512x1x8 : S512x27x27.Slices ![0, 7, 0] S512x1x8
  shapeCasts_S512x1x8_S512x8 : S512x1x8.ShapeCasts S512x8
  slices_S512x27x27_o0_8_0_S512x1x9 : S512x27x27.Slices ![0, 8, 0] S512x1x9
  shapeCasts_S512x1x9_S512x9 : S512x1x9.ShapeCasts S512x9
  slices_S512x27x27_o0_9_0_S512x1x10 : S512x27x27.Slices ![0, 9, 0] S512x1x10
  shapeCasts_S512x1x10_S512x10 : S512x1x10.ShapeCasts S512x10
  slices_S512x27x27_o0_10_0_S512x1x11 : S512x27x27.Slices ![0, 10, 0] S512x1x11
  shapeCasts_S512x1x11_S512x11 : S512x1x11.ShapeCasts S512x11
  slices_S512x27x27_o0_11_0_S512x1x12 : S512x27x27.Slices ![0, 11, 0] S512x1x12
  shapeCasts_S512x1x12_S512x12 : S512x1x12.ShapeCasts S512x12
  slices_S512x27x27_o0_12_0_S512x1x13 : S512x27x27.Slices ![0, 12, 0] S512x1x13
  shapeCasts_S512x1x13_S512x13 : S512x1x13.ShapeCasts S512x13
  slices_S512x27x27_o0_13_0_S512x1x14 : S512x27x27.Slices ![0, 13, 0] S512x1x14
  shapeCasts_S512x1x14_S512x14 : S512x1x14.ShapeCasts S512x14
  slices_S512x27x27_o0_14_0_S512x1x15 : S512x27x27.Slices ![0, 14, 0] S512x1x15
  shapeCasts_S512x1x15_S512x15 : S512x1x15.ShapeCasts S512x15
  slices_S512x27x27_o0_15_0_S512x1x16 : S512x27x27.Slices ![0, 15, 0] S512x1x16
  shapeCasts_S512x1x16_S512x16 : S512x1x16.ShapeCasts S512x16
  slices_S512x27x27_o0_16_0_S512x1x17 : S512x27x27.Slices ![0, 16, 0] S512x1x17
  shapeCasts_S512x1x17_S512x17 : S512x1x17.ShapeCasts S512x17
  slices_S512x27x27_o0_17_0_S512x1x18 : S512x27x27.Slices ![0, 17, 0] S512x1x18
  shapeCasts_S512x1x18_S512x18 : S512x1x18.ShapeCasts S512x18
  slices_S512x27x27_o0_18_0_S512x1x19 : S512x27x27.Slices ![0, 18, 0] S512x1x19
  shapeCasts_S512x1x19_S512x19 : S512x1x19.ShapeCasts S512x19
  slices_S512x27x27_o0_19_0_S512x1x20 : S512x27x27.Slices ![0, 19, 0] S512x1x20
  shapeCasts_S512x1x20_S512x20 : S512x1x20.ShapeCasts S512x20
  slices_S512x27x27_o0_20_0_S512x1x21 : S512x27x27.Slices ![0, 20, 0] S512x1x21
  shapeCasts_S512x1x21_S512x21 : S512x1x21.ShapeCasts S512x21
  slices_S512x27x27_o0_21_0_S512x1x22 : S512x27x27.Slices ![0, 21, 0] S512x1x22
  shapeCasts_S512x1x22_S512x22 : S512x1x22.ShapeCasts S512x22
  slices_S512x27x27_o0_22_0_S512x1x23 : S512x27x27.Slices ![0, 22, 0] S512x1x23
  shapeCasts_S512x1x23_S512x23 : S512x1x23.ShapeCasts S512x23
  slices_S512x27x27_o0_23_0_S512x1x24 : S512x27x27.Slices ![0, 23, 0] S512x1x24
  shapeCasts_S512x1x24_S512x24 : S512x1x24.ShapeCasts S512x24
  slices_S512x27x27_o0_24_0_S512x1x25 : S512x27x27.Slices ![0, 24, 0] S512x1x25
  shapeCasts_S512x1x25_S512x25 : S512x1x25.ShapeCasts S512x25
  slices_S512x27x27_o0_25_0_S512x1x26 : S512x27x27.Slices ![0, 25, 0] S512x1x26
  shapeCasts_S512x1x26_S512x26 : S512x1x26.ShapeCasts S512x26
  slices_S512x27x27_o0_26_0_S512x1x27 : S512x27x27.Slices ![0, 26, 0] S512x1x27
  shapeCasts_S512x1x27_S512x27 : S512x1x27.ShapeCasts S512x27
  concatenates_S512x1_S512x2_S512x3_S512x4_S512x5_S512x6_S512x7_S512x8_S512x9_S512x10_S512x11_S512x12_S512x13_S512x14_S512x15_S512x16_S512x17_S512x18_S512x19_S512x20_S512x21_S512x22_S512x23_S512x24_S512x25_S512x26_S512x27_S512x378_d1 : Shape.Concatenates [S512x1, S512x2, S512x3, S512x4, S512x5, S512x6, S512x7, S512x8, S512x9, S512x10, S512x11, S512x12, S512x13, S512x14, S512x15, S512x16, S512x17, S512x18, S512x19, S512x20, S512x21, S512x22, S512x23, S512x24, S512x25, S512x26, S512x27] S512x378 1
  concatenates_S512x512_S512x378_S512x890_d1 : Shape.Concatenates [S512x512, S512x378] S512x890 1
  inb_S890x512_S890x512_0_0 : ∀ a, (![0, 0] : Fin 2 → Nat) a + S890x512.size a ≤ S890x512.size a
  h_S890x512 : 0 < S890x512.numel
  shapeCasts_S890x512_S890x512 : S890x512.ShapeCasts S890x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x128_S512x128_1_0_0_1_n_n_wf : DotDims.WF S512x512 S512x128 S512x128 [1] [0] [0] [1] [] []
  dot_S512x27x128_S512x27x128_S512x27x27_2_2_1_1_0_0_wf : DotDims.WF S512x27x128 S512x27x128 S512x27x27 [2] [2] [1] [1] [0] [0]
  dot_S512x890_S890x512_S512x512_1_0_0_1_n_n_wf : DotDims.WF S512x890 S890x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S16384x26x128.size a
  hwx0_1 : ∀ i : grid0.Coords, EltTy.bits .f32 = 32 ∨ (Rect.block (s := S16384x26x128) S512x26x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S890x512.size a ≤ S890x512.size a
  hwx0_4 : ∀ i : grid0.Coords, EltTy.bits .f32 = 32 ∨ (Rect.block (s := S890x512) S890x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x27x128_S512x27x128_S512x27x27_2_2_1_1_0_0 : DotDims S512x27x128 S512x27x128 S512x27x27 where
  lhsContracting := [2]
  rhsContracting := [2]
  lhsNonContracting := [1]
  rhsNonContracting := [1]
  lhsBatch := [0]
  rhsBatch := [0]
  wf := dot_S512x27x128_S512x27x128_S512x27x27_2_2_1_1_0_0_wf
def dot_S512x890_S890x512_S512x512_1_0_0_1_n_n : DotDims S512x890 S890x512 S512x512 where
  lhsContracting := [1]
  rhsContracting := [0]
  lhsNonContracting := [0]
  rhsNonContracting := [1]
  lhsBatch := []
  rhsBatch := []
  wf := dot_S512x890_S890x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S890x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S512x128 : Shape := ⟨2, ![512, 128]⟩
abbrev S16384x128 : Shape := ⟨2, ![16384, 128]⟩
abbrev S1x128 : Shape := ⟨2, ![1, 128]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S27x27 : Shape := ⟨2, ![27, 27]⟩
abbrev S729 : Shape := ⟨1, ![729]⟩
abbrev S378 : Shape := ⟨1, ![378]⟩
abbrev S729x1 : Shape := ⟨2, ![729, 1]⟩
abbrev S378x1 : Shape := ⟨2, ![378, 1]⟩
abbrev S378x2 : Shape := ⟨2, ![378, 2]⟩
abbrev S16384x378 : Shape := ⟨2, ![16384, 378]⟩
abbrev S16384x890 : Shape := ⟨2, ![16384, 890]⟩
abbrev S890x512 : Shape := ⟨2, ![890, 512]⟩
abbrev S1x512 : Shape := ⟨2, ![1, 512]⟩

abbrev nBuf : Space → Nat
  | .hbm => 155
  | .vmem => 0
  | .smem => 0
  | _ => 0

abbrev hbmTy0_0 (i : Nat) : BufTy := match i % 128 with
  | 0 => ⟨S16384x512, .f32⟩
  | 1 => ⟨S16384x26x128, .f32⟩
  | 2 => ⟨S128x512, .f32⟩
  | 3 => ⟨S128, .f32⟩
  | 4 => ⟨S512x890, .f32⟩
  | 5 => ⟨S512, .f32⟩
  | 6 => ⟨S512x128, .f32⟩
  | 7 => ⟨S16384x128, .f32⟩
  | 8 => ⟨S1x128, .f32⟩
  | 9 => ⟨S16384x128, .f32⟩
  | 10 => ⟨S16384x128, .f32⟩
  | 11 => ⟨S16384x1x128, .f32⟩
  | 12 => ⟨S16384x27x128, .f32⟩
  | 13 => ⟨S16384x27x27, .f32⟩
  | 14 => ⟨S_, .f32⟩
  | 15 => ⟨S27x27, .f32⟩
  | 16 => ⟨S27x27, .i32⟩
  | 17 => ⟨S_, .i32⟩
  | 18 => ⟨S27x27, .i32⟩
  | 19 => ⟨S27x27, .i32⟩
  | 20 => ⟨S27x27, .i32⟩
  | 21 => ⟨S27x27, .i1⟩
  | 22 => ⟨S_, .f32⟩
  | 23 => ⟨S27x27, .f32⟩
  | 24 => ⟨S27x27, .f32⟩
  | 25 => ⟨S_, .f32⟩
  | 26 => ⟨S27x27, .f32⟩
  | 27 => ⟨S27x27, .i1⟩
  | 28 => ⟨S729, .i1⟩
  | 29 => ⟨S729, .i32⟩
  | 30 => ⟨S_, .i32⟩
  | 31 => ⟨S_, .i32⟩
  | 32 => ⟨S729, .i32⟩
  | 33 => ⟨S_, .i32⟩
  | 34 => ⟨S378, .i32⟩
  | 35 => ⟨S_, .i32⟩
  | 36 => ⟨S_, .i32⟩
  | 37 => ⟨S729, .i32⟩
  | 38 => ⟨S729, .i32⟩
  | 39 => ⟨S_, .i32⟩
  | 40 => ⟨S729, .i32⟩
  | 41 => ⟨S729, .i1⟩
  | 42 => ⟨S_, .i32⟩
  | 43 => ⟨S729, .i32⟩
  | 44 => ⟨S729, .i32⟩
  | 45 => ⟨S729, .i32⟩
  | 46 => ⟨S729x1, .i32⟩
  | 47 => ⟨S_, .i32⟩
  | 48 => ⟨S729, .i32⟩
  | 49 => ⟨S378, .i32⟩
  | 50 => ⟨S_, .i32⟩
  | 51 => ⟨S_, .i32⟩
  | 52 => ⟨S378, .i32⟩
  | 53 => ⟨S_, .i32⟩
  | 54 => ⟨S378, .i32⟩
  | 55 => ⟨S378, .i32⟩
  | 56 => ⟨S378, .i32⟩
  | 57 => ⟨S_, .i32⟩
  | 58 => ⟨S378, .i32⟩
  | 59 => ⟨S378, .i1⟩
  | 60 => ⟨S378, .i32⟩
  | 61 => ⟨S378, .i32⟩
  | 62 => ⟨S_, .i32⟩
  | 63 => ⟨S378, .i32⟩
  | 64 => ⟨S378, .i1⟩
  | 65 => ⟨S378, .i1⟩
  | 66 => ⟨S_, .i32⟩
  | 67 => ⟨S378, .i32⟩
  | 68 => ⟨S378, .i32⟩
  | 69 => ⟨S378, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S378, .i32⟩
  | 77 => ⟨S378, .i32⟩
  | 78 => ⟨S_, .i32⟩
  | 79 => ⟨S378, .i32⟩
  | 80 => ⟨S378, .i1⟩
  | 81 => ⟨S_, .i32⟩
  | 82 => ⟨S378, .i32⟩
  | 83 => ⟨S378, .i1⟩
  | 84 => ⟨S_, .i32⟩
  | 85 => ⟨S_, .i1⟩
  | 86 => ⟨S378, .i1⟩
  | 87 => ⟨S378, .i1⟩
  | 88 => ⟨S378, .i1⟩
  | 89 => ⟨S378, .i32⟩
  | 90 => ⟨S378, .i32⟩
  | 91 => ⟨S378, .i32⟩
  | 92 => ⟨S_, .i32⟩
  | 93 => ⟨S378, .i32⟩
  | 94 => ⟨S378, .i32⟩
  | 95 => ⟨S378, .i32⟩
  | 96 => ⟨S_, .i32⟩
  | 97 => ⟨S378, .i32⟩
  | 98 => ⟨S378, .i1⟩
  | 99 => ⟨S378, .i32⟩
  | 100 => ⟨S378, .i32⟩
  | 101 => ⟨S_, .i32⟩
  | 102 => ⟨S378, .i32⟩
  | 103 => ⟨S378, .i1⟩
  | 104 => ⟨S378, .i1⟩
  | 105 => ⟨S_, .i32⟩
  | 106 => ⟨S378, .i32⟩
  | 107 => ⟨S378, .i32⟩
  | 108 => ⟨S378, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S378, .i32⟩
  | 116 => ⟨S378, .i32⟩
  | 117 => ⟨S_, .i32⟩
  | 118 => ⟨S378, .i32⟩
  | 119 => ⟨S378, .i1⟩
  | 120 => ⟨S_, .i32⟩
  | 121 => ⟨S378, .i32⟩
  | 122 => ⟨S378, .i1⟩
  | 123 => ⟨S_, .i32⟩
  | 124 => ⟨S_, .i1⟩
  | 125 => ⟨S378, .i1⟩
  | 126 => ⟨S378, .i1⟩
  | 127 => ⟨S378, .i1⟩
  | _ => ⟨S16384x512, .f32⟩

abbrev hbmTy0_1 (i : Nat) : BufTy := match i % 128 with
  | 0 => ⟨S378, .i32⟩
  | 1 => ⟨S378, .i32⟩
  | 2 => ⟨S378, .i32⟩
  | 3 => ⟨S_, .i32⟩
  | 4 => ⟨S378, .i32⟩
  | 5 => ⟨S378, .i1⟩
  | 6 => ⟨S_, .i32⟩
  | 7 => ⟨S378, .i32⟩
  | 8 => ⟨S378, .i32⟩
  | 9 => ⟨S378, .i32⟩
  | 10 => ⟨S_, .i32⟩
  | 11 => ⟨S378, .i32⟩
  | 12 => ⟨S378, .i1⟩
  | 13 => ⟨S_, .i32⟩
  | 14 => ⟨S378, .i32⟩
  | 15 => ⟨S378, .i32⟩
  | 16 => ⟨S378, .i32⟩
  | 17 => ⟨S378x1, .i32⟩
  | 18 => ⟨S378x1, .i32⟩
  | 19 => ⟨S378x2, .i32⟩
  | 20 => ⟨S16384x378, .f32⟩
  | 21 => ⟨S16384x890, .f32⟩
  | 22 => ⟨S890x512, .f32⟩
  | 23 => ⟨S16384x512, .f32⟩
  | 24 => ⟨S1x512, .f32⟩
  | 25 => ⟨S16384x512, .f32⟩
  | 26 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_call0_c : Ref sig .tc := ⟨.hbm, 30, rfl⟩
abbrev main_call1_call0_v0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_call3_call0_c : Ref sig .tc := ⟨.hbm, 50, rfl⟩
abbrev main_call3_call0_v0 : Ref sig .tc := ⟨.hbm, 51, rfl⟩
abbrev main_v23 : Ref sig .tc := ⟨.hbm, 52, rfl⟩
abbrev main_c_5 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_v6 : Ref sig .tc := ⟨.hbm, 60, rfl⟩
abbrev main_call4_v7 : Ref sig .tc := ⟨.hbm, 61, rfl⟩
abbrev main_call4_c : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_c_0 : Ref sig .tc := ⟨.hbm, 66, rfl⟩
abbrev main_call4_v11 : Ref sig .tc := ⟨.hbm, 67, rfl⟩
abbrev main_call4_v12 : Ref sig .tc := ⟨.hbm, 68, rfl⟩
abbrev main_v24 : Ref sig .tc := ⟨.hbm, 69, rfl⟩
abbrev main_c_6 : Ref sig .tc := ⟨.hbm, 70, rfl⟩
abbrev main_call5_v0 : Ref sig .tc := ⟨.hbm, 71, rfl⟩
abbrev main_call5_c : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_c_1 : Ref sig .tc := ⟨.hbm, 78, rfl⟩
abbrev main_call5_v5 : Ref sig .tc := ⟨.hbm, 79, rfl⟩
abbrev main_call5_v6 : Ref sig .tc := ⟨.hbm, 80, rfl⟩
abbrev main_call5_c_2 : Ref sig .tc := ⟨.hbm, 81, rfl⟩
abbrev main_call5_v7 : Ref sig .tc := ⟨.hbm, 82, rfl⟩
abbrev main_call5_v8 : Ref sig .tc := ⟨.hbm, 83, rfl⟩
abbrev main_call5_c_3 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_v25 : Ref sig .tc := ⟨.hbm, 91, rfl⟩
abbrev main_c_7 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_v5 : Ref sig .tc := ⟨.hbm, 98, rfl⟩
abbrev main_call6_v6 : Ref sig .tc := ⟨.hbm, 99, rfl⟩
abbrev main_call6_v7 : Ref sig .tc := ⟨.hbm, 100, rfl⟩
abbrev main_call6_c : Ref sig .tc := ⟨.hbm, 101, rfl⟩
abbrev main_call6_v8 : Ref sig .tc := ⟨.hbm, 102, rfl⟩
abbrev main_call6_v9 : Ref sig .tc := ⟨.hbm, 103, rfl⟩
abbrev main_call6_v10 : Ref sig .tc := ⟨.hbm, 104, rfl⟩
abbrev main_call6_c_0 : Ref sig .tc := ⟨.hbm, 105, rfl⟩
abbrev main_call6_v11 : Ref sig .tc := ⟨.hbm, 106, rfl⟩
abbrev main_call6_v12 : Ref sig .tc := ⟨.hbm, 107, rfl⟩
abbrev main_v26 : Ref sig .tc := ⟨.hbm, 108, rfl⟩
abbrev main_c_8 : Ref sig .tc := ⟨.hbm, 109, rfl⟩
abbrev main_call7_v0 : Ref sig .tc := ⟨.hbm, 110, rfl⟩
abbrev main_call7_c : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_c_1 : Ref sig .tc := ⟨.hbm, 117, rfl⟩
abbrev main_call7_v5 : Ref sig .tc := ⟨.hbm, 118, rfl⟩
abbrev main_call7_v6 : Ref sig .tc := ⟨.hbm, 119, rfl⟩
abbrev main_call7_c_2 : Ref sig .tc := ⟨.hbm, 120, rfl⟩
abbrev main_call7_v7 : Ref sig .tc := ⟨.hbm, 121, rfl⟩
abbrev main_call7_v8 : Ref sig .tc := ⟨.hbm, 122, rfl⟩
abbrev main_call7_c_3 : Ref sig .tc := ⟨.hbm, 123, rfl⟩
abbrev main_call7_v9 : Ref sig .tc := ⟨.hbm, 124, rfl⟩
abbrev main_call7_v10 : Ref sig .tc := ⟨.hbm, 125, rfl⟩
abbrev main_call7_v11 : Ref sig .tc := ⟨.hbm, 126, rfl⟩
abbrev main_call7_v12 : Ref sig .tc := ⟨.hbm, 127, rfl⟩
abbrev main_call7_v13 : Ref sig .tc := ⟨.hbm, 128, rfl⟩
abbrev main_call7_v14 : Ref sig .tc := ⟨.hbm, 129, rfl⟩
abbrev main_v27 : Ref sig .tc := ⟨.hbm, 130, rfl⟩
abbrev main_c_9 : Ref sig .tc := ⟨.hbm, 131, rfl⟩
abbrev main_v28 : Ref sig .tc := ⟨.hbm, 132, rfl⟩
abbrev main_v29 : Ref sig .tc := ⟨.hbm, 133, rfl⟩
abbrev main_c_10 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_c_11 : Ref sig .tc := ⟨.hbm, 138, rfl⟩
abbrev main_v33 : Ref sig .tc := ⟨.hbm, 139, rfl⟩
abbrev main_v34 : Ref sig .tc := ⟨.hbm, 140, rfl⟩
abbrev main_c_12 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S378 : S_.BroadcastsInDim S378 (![] : Fin 0 → Fin S378.rank)
  bcast_S_S729 : S_.BroadcastsInDim S729 (![] : Fin 0 → Fin S729.rank)
  bcast_S729_S729x1_0 : S729.BroadcastsInDim S729x1 (![0] : Fin 1 → Fin S729x1.rank)
  reduceWindows_S378_S378_w378s1p377_0 : S378.ReduceWindows (![378] : Fin 1 → Nat) ![1] ![377] ![0] S378
  bcast_S378_S378x1_0 : S378.BroadcastsInDim S378x1 (![0] : Fin 1 → Fin S378x1.rank)
  concatenates_S378x1_S378x1_S378x2_d1 : Shape.Concatenates [S378x1, S378x1] S378x2 1
  concatenates_S16384x512_S16384x378_S16384x890_d1 : Shape.Concatenates [S16384x512, S16384x378] S16384x890 1
  transposes_S512x890_S890x512_1_0 : S512x890.Transposes [1, 0] S890x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x128_S16384x128_1_0_0_1_n_n_wf : DotDims.WF S16384x512 S512x128 S16384x128 [1] [0] [0] [1] [] []
  dot_S16384x27x128_S16384x27x128_S16384x27x27_2_2_1_1_0_0_wf : DotDims.WF S16384x27x128 S16384x27x128 S16384x27x27 [2] [2] [1] [1] [0] [0]
  scatter_S378_S729x1_S729_n_0_0_1_wf : ScatterDims.WF S378 S729x1 S729 [] [0] [0] 1
  gather_S16384x27x27_S378x2_S16384x378_0_12_n_n_12_1_1638411_wf : GatherDims.WF S16384x27x27 S378x2 S16384x378 [0] [1, 2] [] [1, 2] [] 1 ![16384, 1, 1]
  dot_S16384x890_S890x512_S16384x512_1_0_0_1_n_n_wf : DotDims.WF S16384x890 S890x512 S16384x512 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def scatter_S378_S729x1_S729_n_0_0_1 : ScatterDims S378 S729x1 S729 where
  updateWindowDims := []
  insertedWindowDims := [0]
  scatterDimsToOperandDims := [0]
  indexVectorDim := 1
  wf := scatter_S378_S729x1_S729_n_0_0_1_wf
def gather_S16384x27x27_S378x2_S16384x378_0_12_n_n_12_1_1638411 : GatherDims S16384x27x27 S378x2 S16384x378 where
  offsetDims := [0]
  collapsedSliceDims := [1, 2]
  operandBatchingDims := []
  startIndicesBatchingDims := []
  startIndexMap := [1, 2]
  indexVectorDim := 1
  sliceSizes := ![16384, 1, 1]
  wf := gather_S16384x27x27_S378x2_S16384x378_0_12_n_n_12_1_1638411_wf
def dot_S16384x890_S890x512_S16384x512_1_0_0_1_n_n : DotDims S16384x890 S890x512 S16384x512 where
  lhsContracting := [1]
  rhsContracting := [0]
  lhsNonContracting := [0]
  rhsNonContracting := [1]
  lhsBatch := []
  rhsBatch := []
  wf := dot_S16384x890_S890x512_S16384x512_1_0_0_1_n_n_wf

class Facts : Prop extends Facts₀ where

variable [Facts]
-- ==== Proof.Spec.lean ====
/-
  The result both programs compute, one batch row at a time, on the extended reals.

  A batch row has a dense part `xr` (512 numbers) and 26 sparse embeddings `sr` of width 128.  The dense part is projected
  to width 128 (`projR`: the weights `wp` [128 × 512] and the bias `bp`), set in front of the sparse embeddings as row 0
  of a 27 × 128 matrix (`TR`), and that matrix is multiplied by its own transpose (`ZR`, 27 × 27, symmetric).  The lower
  triangle of the product, diagonal included, is laid out row after row — row i contributes its entries 0 … i, so entry
  p = i(i+1)/2 + j of the 378 comes from (i, j) = (`triRow p`, `triCol p`) — behind the 512 dense numbers (`featR`, 890 numbers),
  and the result is that feature vector times the output weights `wo` [512 × 890] plus the bias `bo` (`rowOut`).
-/
import Idealize.ShloMosaic.PureOps.Ideal
import Idealize.ShloMosaic.Lib.ValueIdx

noncomputable section

open scoped BigOperators
open Idealize.ShloMosaic Idealize.ShloMosaic.ValueIdx

namespace Cert.Spec

/-! ## The lower triangle, row after row -/

/-- The row of the lower triangle that holds position `p` of the row-after-row enumeration: the number of complete
    rows before `p` (rows 0 … i together hold (i+1)(i+2)/2 entries). -/
def triRowN (p : Nat) : Nat := ((List.range 27).filter fun i => (i + 1) * (i + 2) / 2 ≤ p).length

/-- The column: the position inside that row. -/
def triColN (p : Nat) : Nat := p - triRowN p * (triRowN p + 1) / 2

theorem triRowN_lt : ∀ p : Fin 378, triRowN p.val < 27 := by decide
theorem triColN_le : ∀ p : Fin 378, triColN p.val ≤ triRowN p.val := by decide
/-- Position `p` is entry (row, column) counted row after row. -/
theorem tri_pos : ∀ p : Fin 378, p.val = triRowN p.val * (triRowN p.val + 1) / 2 + triColN p.val := by decide

def triRow (p : Fin 378) : Fin 27 := ⟨triRowN p.val, triRowN_lt p⟩
def triCol (p : Fin 378) : Fin 27 := ⟨triColN p.val, Nat.lt_of_le_of_lt (triColN_le p) (triRowN_lt p)⟩

/-! ## One batch row -/

/-- The dense part projected to the embedding width: `xr · wpᵀ + bp`. -/
def projR (xr : Fin 512 → EReal) (wp : Fin 128 → Fin 512 → EReal) (bp : Fin 128 → EReal) (e : Fin 128) : EReal :=
  (∑ k : Fin 512, xr k * wp e k) + bp e

/-- The 27 × 128 matrix of a batch row: the projection, then the 26 sparse embeddings. -/
def TR (xr : Fin 512 → EReal) (sr : Fin 26 → Fin 128 → EReal) (wp : Fin 128 → Fin 512 → EReal) (bp : Fin 128 → EReal)
    (i : Fin 27) (e : Fin 128) : EReal :=
  if h : i.val = 0 then projR xr wp bp e else sr ⟨i.val - 1, by have := i.isLt; omega⟩ e

/-- Its product with its own transpose. -/
def ZR (xr : Fin 512 → EReal) (sr : Fin 26 → Fin 128 → EReal) (wp : Fin 128 → Fin 512 → EReal) (bp : Fin 128 → EReal)
    (i j : Fin 27) : EReal :=
  ∑ e : Fin 128, TR xr sr wp bp i e * TR xr sr wp bp j e

/-- The 890 features: the dense part, then the product's lower triangle row after row. -/
def featR (xr : Fin 512 → EReal) (sr : Fin 26 → Fin 128 → EReal) (wp : Fin 128 → Fin 512 → EReal) (bp : Fin 128 → EReal)
    (k : Fin 890) : EReal :=
  if h : k.val < 512 then xr ⟨k.val, h⟩
  else ZR xr sr wp bp (triRow ⟨k.val - 512, by have := k.isLt; omega⟩) (triCol ⟨k.val - 512, by have := k.isLt; omega⟩)

/-- The batch row's result: the features times the output weights, plus the bias. -/
def rowOut (xr : Fin 512 → EReal) (sr : Fin 26 → Fin 128 → EReal) (wp : Fin 128 → Fin 512 → EReal) (bp : Fin 128 → EReal)
    (wo : Fin 512 → Fin 890 → EReal) (bo : Fin 512 → EReal) (o : Fin 512) : EReal :=
  (∑ k : Fin 890, featR xr sr wp bp k * wo o k) + bo o

/-! ## The whole result -/

/-- The result array as one function of the six argument arrays, index by index. -/
def G (x : FVec Ideal ⟨2, ![16384, 512]⟩ .f32) (s : FVec Ideal ⟨3, ![16384, 26, 128]⟩ .f32) (Wp : FVec Ideal ⟨2, ![128, 512]⟩ .f32)
    (bp : FVec Ideal ⟨1, ![128]⟩ .f32) (Wo : FVec Ideal ⟨2, ![512, 890]⟩ .f32) (bo : FVec Ideal ⟨1, ![512]⟩ .f32) :
    FVec Ideal ⟨2, ![16384, 512]⟩ .f32 := fun j =>
  rowOut (fun k => x (ix2 (j 0) k)) (fun i e => s (ix3 (j 0) i e)) (fun e k => Wp (ix2 e k)) (fun e => bp (ix1 e))
    (fun o k => Wo (ix2 o k)) (fun o => bo (ix1 o)) (j 1)

end Cert.Spec

end
-- ==== Proof.KernelBlock.lean ====
/-
  What the kernel leaves in its output block at one grid point, read at an index: the specification's batch-row result of
  the point's input blocks.
-/
import proofs.«178493_j49555332661502_1_alg».proof.Proof.Gen.KernelIdeal.Frame
import proofs.«178493_j49555332661502_1_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.KBlock

open Cert.KernelIdeal Cert.KernelIdeal.Gen Idealize.ShloMosaic Idealize.ShloMosaic.ValueIdx

variable {φ₁ φ₂ : FTy}

/-- A product of an [M, K] by a [K, N] matrix contracted over the left operand's axis 1 and the right operand's axis 0,
    accumulated into zero, read at an index: the sum over the contracted coordinate. -/
theorem matmul_plain_apply {M K N : Nat}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    matmul (⟨[1], [0], [0], [1], [], [], w⟩ : DotDims _ _ _) none A B (constant (F := Ideal) ⟨2, ![M, N]⟩ .f32 0x00000000#32) (ix2 a b)
      = ∑ c : Fin K, A (ix2 a c) * B (ix2 c b) := by
  simp only [matmul]
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of two stacks [G, m, K] and [G, n, K], member by member, each contracted over its last axis, accumulated
    into zero, read at an index: the sum over the contracted coordinate. -/
theorem matmul_stack_apply {G m n K : Nat}
    (w : DotDims.WF ⟨3, ![G, m, K]⟩ ⟨3, ![G, n, K]⟩ ⟨3, ![G, m, n]⟩ [2] [2] [1] [1] [0] [0])
    (A : FVec Ideal ⟨3, ![G, m, K]⟩ φ₁) (B : FVec Ideal ⟨3, ![G, n, K]⟩ φ₂) (g : Fin G) (a : Fin m) (b : Fin n) :
    matmul (⟨[2], [2], [1], [1], [0], [0], w⟩ : DotDims _ _ _) none A B (constant (F := Ideal) ⟨3, ![G, m, n]⟩ .f32 0x00000000#32) (ix3 g a b)
      = ∑ c : Fin K, A (ix3 g a c) * B (ix3 g b c) := by
  simp only [matmul]
  rw [Ideal.matmul_constant_zero_apply,
    ← Equiv.sum_comp (contrEquiv1 (⟨[2], [2], [1], [1], [0], [0], w⟩ : DotDims _ _ _) K rfl rfl).symm]
  refine Finset.sum_congr rfl fun c _ => ?_
  have c3 := contrEquiv1_symm_val
    (⟨[2], [2], [1], [1], [0], [0], w⟩ : DotDims ⟨3, ![G, m, K]⟩ ⟨3, ![G, n, K]⟩ ⟨3, ![G, m, n]⟩) K rfl rfl c
  have l3 : (⟨[2], [2], [1], [1], [0], [0], w⟩ : DotDims ⟨3, ![G, m, K]⟩ ⟨3, ![G, n, K]⟩ ⟨3, ![G, m, n]⟩).lhsIdx (ix3 g a b)
      ((contrEquiv1 _ K rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, K]⟩ ⟨3, ![G, n, K]⟩ ⟨3, ![G, m, n]⟩).rhsIdx (ix3 g a b)
      ((contrEquiv1 _ K rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## The projection, the 27 × 128 matrix and its product with its transpose -/

/-- The dense block times the projection weights plus the bias row, at row `r` and column `e`. -/
theorem proj_apply (x0 : FVec Ideal S512x512 .f32) (x2 : FVec Ideal S512x128 .f32) (x3 : FVec Ideal S1x128 .f32)
    (hb : FTy.bits .bf16 < FTy.bits .f32) (h2 : S512x128.ShapeCasts S512x128) (h3 : S1x128.ShapeCasts S1x128)
    (hbr : S1x128.Broadcasts S512x128) (r : Fin 512) (e : Fin 128) :
    addf (matmul dot_S512x512_S512x128_S512x128_1_0_0_1_n_n none (truncf .bf16 x0 hb) (truncf .bf16 (shapeCast S512x128 x2 h2) hb)
        (constant (F := Ideal) S512x128 .f32 0x00000000#32)) (broadcastTo S512x128 (shapeCast S1x128 x3 h3) hbr) (ix2 r e)
      = Spec.projR (fun k => x0 (ix2 r k)) (fun e k => x2 (ix2 k e)) (fun e => x3 (ix2 0 e)) e := by
  rw [addf_apply, shapeCast_self, shapeCast_self, broadcastTo_1b_ab_apply]
  exact congrArg (· + x3 (ix2 0 e)) (matmul_plain_apply _ (truncf .bf16 x0 hb) (truncf .bf16 x2 hb) r e)

/-- The projected rows set in front of the sparse embeddings, at row `r`, position `i` and column `e`. -/
theorem T_apply (v9 : FVec Ideal S512x128 .f32) (x1 : FVec Ideal S512x26x128 .f32)
    (h11 : S512x128.ShapeCasts S512x1x128) (hc : Shape.Concatenates [S512x1x128, S512x26x128] S512x27x128 1)
    (r : Fin 512) (i : Fin 27) (e : Fin 128) :
    concatenate S512x27x128 1 [⟨S512x1x128, shapeCast S512x1x128 v9 h11⟩, ⟨S512x26x128, x1⟩] hc (ix3 r i e)
      = if h : i.val = 0 then v9 (ix2 r e) else x1 (ix3 r ⟨i.val - 1, by have := i.isLt; omega⟩ e) := by
  split
  · next h =>
    refine (concatenate_pair_apply_left (t := S512x27x128) (s₁ := S512x1x128) (s₂ := S512x26x128) (1 : Fin 3) _ _ hc (ix3 r i e) rfl (ix3 r (0 : Fin 1) e) ?_).trans ?_
    · intro b
      match b with
      | ⟨0, _⟩ => rfl
      | ⟨1, _⟩ => exact h.symm
      | ⟨2, _⟩ => rfl
    · exact shapeCast_apply v9 h11 (ix3 r (0 : Fin 1) e) (ix2 r e) (by
        rw [Shape.rowMajor_val_two, Shape.rowMajor_val_three]
        show r.val * 128 + e.val = (r.val * 1 + 0) * 128 + e.val
        omega)
  · next h =>
    refine concatenate_pair_apply_right (t := S512x27x128) (s₁ := S512x1x128) (s₂ := S512x26x128) (1 : Fin 3) _ _ hc (ix3 r i e) rfl rfl (ix3 r ⟨i.val - 1, by have := i.isLt; omega⟩ e) ?_ ?_
    · intro b hb
      match b with
      | ⟨0, _⟩ => rfl
      | ⟨1, _⟩ => exact absurd rfl hb
      | ⟨2, _⟩ => rfl
    · show (i.val - 1) + 1 = i.val
      omega

/-- The 27 × 128 matrix of a batch row: the specification's. -/
theorem TR_apply (x0 : FVec Ideal S512x512 .f32) (x2 : FVec Ideal S512x128 .f32) (x3 : FVec Ideal S1x128 .f32)
    (x1 : FVec Ideal S512x26x128 .f32)
    (hb : FTy.bits .bf16 < FTy.bits .f32) (h2 : S512x128.ShapeCasts S512x128) (h3 : S1x128.ShapeCasts S1x128)
    (hbr : S1x128.Broadcasts S512x128) (h11 : S512x128.ShapeCasts S512x1x128)
    (hc : Shape.Concatenates [S512x1x128, S512x26x128] S512x27x128 1) (r : Fin 512) (i : Fin 27) (e : Fin 128) :
    concatenate S512x27x128 1 [⟨S512x1x128, shapeCast S512x1x128
        (addf (matmul dot_S512x512_S512x128_S512x128_1_0_0_1_n_n none (truncf .bf16 x0 hb) (truncf .bf16 (shapeCast S512x128 x2 h2) hb)
          (constant (F := Ideal) S512x128 .f32 0x00000000#32)) (broadcastTo S512x128 (shapeCast S1x128 x3 h3) hbr)) h11⟩,
      ⟨S512x26x128, x1⟩] hc (ix3 r i e)
      = Spec.TR (fun k => x0 (ix2 r k)) (fun i e => x1 (ix3 r i e)) (fun e k => x2 (ix2 k e)) (fun e => x3 (ix2 0 e)) i e := by
  refine (T_apply _ x1 h11 hc r i e).trans ?_
  unfold Spec.TR
  split
  · exact proj_apply x0 x2 x3 hb h2 h3 hbr r e
  · rfl

/-- The Gram matrix of a batch row: the specification's. -/
theorem pay3_apply (x0 : Vec Ideal S512x512 .f32) (x2 : Vec Ideal S512x128 .f32) (x3 : Vec Ideal S1x128 .f32)
    (x1 : Vec Ideal S512x26x128 .f32) (r : Fin 512) (i j : Fin 27) :
    k0_pay3 (F := Ideal) x0 x2 x3 x1 (ix3 r i j)
      = Spec.ZR (fun k => x0 (ix2 r k)) (fun i e => x1 (ix3 r i e)) (fun e k => x2 (ix2 k e)) (fun e => x3 (ix2 0 e)) i j := by
  unfold k0_pay3
  refine (matmul_stack_apply _ _ _ r i j).trans ?_
  unfold Spec.ZR
  refine Finset.sum_congr rfl fun e _ => ?_
  exact congrArg₂ (· * ·) (TR_apply x0 x2 x3 x1 _ _ _ _ _ _ r i e) (TR_apply x0 x2 x3 x1 _ _ _ _ _ _ r j e)

/-! ## The lower triangle, row after row -/

/-- Row `k` of the lower triangle, cut out of the Gram block and flattened: its entry `(r, c)` is the block's `(r, k, c)`. -/
theorem row_piece {α : Type} (k c : Nat) (hk : k < 27) (hck : c ≤ k) (Z : S512x27x27.Idx → α)
    (hs : S512x27x27.Slices ![0, k, 0] ⟨3, ![512, 1, k + 1]⟩)
    (hcst : (⟨3, ![512, 1, k + 1]⟩ : Shape).ShapeCasts ⟨2, ![512, k + 1]⟩) (r : Fin 512) :
    shapeCast ⟨2, ![512, k + 1]⟩ (extractStridedSlice ⟨3, ![512, 1, k + 1]⟩ ![0, k, 0] Z hs) hcst (ix2 r ⟨c, by omega⟩)
      = Z (ix3 r ⟨k, hk⟩ ⟨c, by omega⟩) := by
  refine (shapeCast_apply _ hcst (ix2 r ⟨c, by omega⟩) (ix3 r (0 : Fin 1) ⟨c, by omega⟩) ?_).trans ?_
  · rw [Shape.rowMajor_val_two, Shape.rowMajor_val_three]
    show (r.val * 1 + 0) * (k + 1) + c = r.val * (k + 1) + c
    rw [Nat.mul_one, Nat.add_zero]
  · refine extractStridedSlice_apply _ Z hs _ (ix3 r ⟨k, hk⟩ ⟨c, by omega⟩) fun a => ?_
    match a with
    | ⟨0, _⟩ => exact (Nat.zero_add _).symm
    | ⟨1, _⟩ => rfl
    | ⟨2, _⟩ => exact (Nat.zero_add _).symm

/-- The shapes of the 27 rows of the lower triangle as the kernel lays them side by side: row `i` has `i + 1` entries. -/
abbrev triShapes : List Shape := (List.range 27).map fun i => ⟨2, ![512, i + 1]⟩

/-- Row `k` starts at column k(k+1)/2 = 1 + 2 + … + k. -/
theorem triShapes_start : ∀ k : Fin 27,
    (((triShapes.take k.val)).map fun s => if h : s.rank = S512x378.rank then s.size ((1 : Fin S512x378.rank).cast h.symm) else 0).sum
      = k.val * (k.val + 1) / 2 := by decide

/-- A concatenation along axis 1 of 27 pieces of those shapes whose piece `k` is row `k` of the lower triangle of `Z`,
    read at column `p`, is `Z` at the `p`-th position of the triangle counted row after row. -/
theorem tri_of_pieces (L : List ((s : Shape) × (s.Idx → EReal))) (h : Shape.Concatenates (L.map (·.1)) S512x378 1)
    (Z : S512x27x27.Idx → EReal) (hlen : L.length = 27) (hshapes : L.map (·.1) = triShapes)
    (hL : ∀ (k : Nat) (hk : k < 27), ∃ (hs : S512x27x27.Slices ![0, k, 0] ⟨3, ![512, 1, k + 1]⟩)
      (hcst : (⟨3, ![512, 1, k + 1]⟩ : Shape).ShapeCasts ⟨2, ![512, k + 1]⟩),
      L[k]'(hlen.symm ▸ hk) = ⟨⟨2, ![512, k + 1]⟩, shapeCast ⟨2, ![512, k + 1]⟩ (extractStridedSlice ⟨3, ![512, 1, k + 1]⟩ ![0, k, 0] Z hs) hcst⟩)
    (r : Fin 512) (p : Fin 378) :
    concatenate S512x378 1 L h (ix2 r p) = Z (ix3 r (Spec.triRow p) (Spec.triCol p)) := by
  obtain ⟨hs, hcst, hxk⟩ := hL (Spec.triRowN p.val) (Spec.triRowN_lt p)
  have hpre : (((L.take (Spec.triRowN p.val)).map (·.1)).map fun s =>
      if h : s.rank = S512x378.rank then s.size ((1 : Fin S512x378.rank).cast h.symm) else 0).sum
        = Spec.triRowN p.val * (Spec.triRowN p.val + 1) / 2 := by
    rw [List.map_take, hshapes]
    exact triShapes_start ⟨Spec.triRowN p.val, Spec.triRowN_lt p⟩
  refine (concatenate_apply_piece (1 : Fin 2) L h (ix2 r p) (Spec.triRowN p.val) (hlen.symm ▸ Spec.triRowN_lt p)
    ⟨2, ![512, Spec.triRowN p.val + 1]⟩ _ hxk rfl _ hpre
    (ix2 r ⟨Spec.triColN p.val, by have := Spec.triColN_le p; omega⟩) ?_ ?_).trans
    (row_piece (Spec.triRowN p.val) (Spec.triColN p.val) (Spec.triRowN_lt p) (Spec.triColN_le p) Z hs hcst r)
  · intro b hb
    match b with
    | ⟨0, _⟩ => rfl
    | ⟨1, _⟩ => exact absurd rfl hb
  · show Spec.triRowN p.val * (Spec.triRowN p.val + 1) / 2 + Spec.triColN p.val = p.val
    exact (Spec.tri_pos p).symm

/-- The kernel's 378 triangle columns of a batch row are the Gram block's entries at the triangle's positions. -/
theorem tri_apply (x0 : Vec Ideal S512x512 .f32) (x2 : Vec Ideal S512x128 .f32) (x3 : Vec Ideal S1x128 .f32)
    (x1 : Vec Ideal S512x26x128 .f32) (r : Fin 512) (p : Fin 378) :
    k0_pay1 (F := Ideal) (k0_pay3 x0 x2 x3 x1) (k0_pay4 x0 x2 x3 x1) (k0_pay5 x0 x2 x3 x1) (k0_pay6 x0 x2 x3 x1)
        (k0_pay7 x0 x2 x3 x1) (k0_pay8 x0 x2 x3 x1) (k0_pay9 x0 x2 x3 x1) (k0_pay10 x0 x2 x3 x1) (k0_pay11 x0 x2 x3 x1)
        (k0_pay12 x0 x2 x3 x1) (k0_pay13 x0 x2 x3 x1) (k0_pay14 x0 x2 x3 x1) (k0_pay15 x0 x2 x3 x1)
        (k0_pay16 x0 x2 x3 x1) (k0_pay17 x0 x2 x3 x1) (k0_pay18 x0 x2 x3 x1) (k0_pay19 x0 x2 x3 x1)
        (k0_pay20 x0 x2 x3 x1) (ix2 r p)
      = k0_pay3 (F := Ideal) x0 x2 x3 x1 (ix3 r (Spec.triRow p) (Spec.triCol p)) := by
  unfold k0_pay1 k0_pay4 k0_pay5 k0_pay6 k0_pay7 k0_pay8 k0_pay9 k0_pay10 k0_pay11 k0_pay12 k0_pay13 k0_pay14 k0_pay15 k0_pay16
    k0_pay17 k0_pay18 k0_pay19 k0_pay20
  generalize k0_pay3 (F := Ideal) x0 x2 x3 x1 = Z
  refine tri_of_pieces _ _ Z rfl rfl ?_ r p
  intro k hk
  interval_cases k <;> exact ⟨_, _, by rfl⟩

/-! ## The features and the output layer -/

/-- The dense block with the triangle block behind it, at row `r` and column `k`. -/
theorem feat_apply (x0 : FVec Ideal S512x512 .f32) (v68 : FVec Ideal S512x378 .f32)
    (hc : Shape.Concatenates [S512x512, S512x378] S512x890 1) (r : Fin 512) (k : Fin 890) :
    concatenate S512x890 1 [⟨S512x512, x0⟩, ⟨S512x378, v68⟩] hc (ix2 r k)
      = if h : k.val < 512 then x0 (ix2 r ⟨k.val, h⟩) else v68 (ix2 r ⟨k.val - 512, by have := k.isLt; omega⟩) := by
  split
  · next h =>
    refine concatenate_pair_apply_left (t := S512x890) (s₁ := S512x512) (s₂ := S512x378) (1 : Fin 2) _ _ hc (ix2 r k) rfl (ix2 r ⟨k.val, h⟩) ?_
    intro b
    match b with
    | ⟨0, _⟩ => rfl
    | ⟨1, _⟩ => rfl
  · next h =>
    refine concatenate_pair_apply_right (t := S512x890) (s₁ := S512x512) (s₂ := S512x378) (1 : Fin 2) _ _ hc (ix2 r k) rfl rfl (ix2 r ⟨k.val - 512, by have := k.isLt; omega⟩) ?_ ?_
    · intro b hb
      match b with
      | ⟨0, _⟩ => rfl
      | ⟨1, _⟩ => exact absurd rfl hb
    · show (k.val - 512) + 512 = k.val
      omega

/-- The output layer over any triangle block: the features times the output weights plus the bias row. -/
theorem pay2_apply (x0 : Vec Ideal S512x512 .f32) (v68 : FVec Ideal S512x378 .f32) (x4 : Vec Ideal S890x512 .f32)
    (x5 : Vec Ideal S1x512 .f32) (r o : Fin 512) :
    k0_pay2 (F := Ideal) x0 v68 x4 x5 (ix2 r o)
      = (∑ k : Fin 890, (if h : k.val < 512 then x0 (ix2 r ⟨k.val, h⟩)
            else v68 (ix2 r ⟨k.val - 512, by have := k.isLt; omega⟩)) * x4 (ix2 k o)) + x5 (ix2 0 o) := by
  unfold k0_pay2
  refine congrArg₂ (· + ·) ?_ ?_
  · refine (matmul_plain_apply _ _ _ r o).trans ?_
    refine Finset.sum_congr rfl fun k _ => congrArg₂ (· * ·) ?_ ?_
    · exact (truncf_apply (φ := .f32) (ψ := .bf16) _ _ _).trans (feat_apply x0 v68 _ r k)
    · exact (truncf_apply (φ := .f32) (ψ := .bf16) _ _ _).trans (congrFun (shapeCast_self x4 _) (ix2 k o))
  · refine (broadcastTo_1b_ab_apply _ _ r o).trans ?_
    exact congrFun (shapeCast_self x5 _) (ix2 0 o)

/-- The output block, at row `r` and column `o`, is the batch-row result of row `r` of the dense and sparse blocks, the
    projection weights read transposed out of their [512, 128] block, the output weights read transposed out of their
    [890, 512] block, and the two bias rows. -/
theorem out0_6_apply (x0 : Vec Ideal S512x512 .f32) (x1 : Vec Ideal S512x26x128 .f32) (x2 : Vec Ideal S512x128 .f32)
    (x3 : Vec Ideal S1x128 .f32) (x4 : Vec Ideal S890x512 .f32) (x5 : Vec Ideal S1x512 .f32) (r o : Fin 512) :
    out0_6 (F := Ideal) x0 x1 x2 x3 x4 x5 (ix2 r o)
      = Cert.Spec.rowOut (fun k => x0 (ix2 r k)) (fun i e => x1 (ix3 r i e)) (fun e k => x2 (ix2 k e)) (fun e => x3 (ix2 0 e))
          (fun o' k => x4 (ix2 k o')) (fun o' => x5 (ix2 0 o')) o := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_6
  rw [View.canon_unit_zero hz2]
  simp only [View.ld_unit_zero (S := S512x512) hz2, View.ld_unit_zero (S := S512x128) hz2, View.ld_unit_zero (S := S1x128) hz2,
    View.ld_unit_zero (S := S512x26x128) hz3, View.ld_unit_zero (S := S890x512) hz2, View.ld_unit_zero (S := S1x512) hz2]
  refine (pay2_apply x0 _ x4 x5 r o).trans ?_
  unfold Spec.rowOut
  refine congrArg (· + x5 (ix2 0 o)) (Finset.sum_congr rfl fun k _ => congrArg (· * x4 (ix2 k o)) ?_)
  unfold Spec.featR
  split
  · rfl
  · exact (tri_apply x0 x2 x3 x1 r _).trans (pay3_apply x0 x2 x3 x1 r _ _)

end Cert.KernelIdeal.KBlock

end
-- ==== Proof.KernelValue.lean ====
/-
  The kernel program's run at the extended reals: the result array ends at the specification's function of the six
  arguments, the arguments unchanged.
-/
import proofs.«178493_j49555332661502_1_alg».proof.Proof.KernelBlock
import proofs.«178493_j49555332661502_1_alg».proof.Proof.Gen.KernelIdeal.Value

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's result of the launch contents of the six argument buffers. -/
abbrev result (c : Dev nD) : Buf (Elt Ideal) ((c : Thread nD τ).loc main_v4) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The index maps over the grid

Grid point `t` of the 32 takes batch rows 512 t … 512 t + 511: the dense, sparse and output windows sit at block row `t`
(every other block coordinate 0), and the four weight and bias windows are the one block of their whole arrays. -/

theorem idx_out : ∀ t : Fin cfg0.N, win0_6.index t (0 : Fin 2) = t.val ∧ win0_6.index t (1 : Fin 2) = 0 :=
  (by decide +kernel : ∀ t : Fin grid0.N, _)
theorem idx_dense : ∀ t : Fin cfg0.N, win0_0.index t (0 : Fin 2) = t.val ∧ win0_0.index t (1 : Fin 2) = 0 :=
  (by decide +kernel : ∀ t : Fin grid0.N, _)
theorem idx_sparse : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx_wp : ∀ t : Fin cfg0.N, win0_2.index t (0 : Fin 2) = 0 ∧ win0_2.index t (1 : Fin 2) = 0 :=
  (by decide +kernel : ∀ t : Fin grid0.N, _)
theorem idx_bp : ∀ t : Fin cfg0.N, win0_3.index t (0 : Fin 2) = 0 ∧ win0_3.index t (1 : Fin 2) = 0 :=
  (by decide +kernel : ∀ t : Fin grid0.N, _)
theorem idx_wo : ∀ t : Fin cfg0.N, win0_4.index t (0 : Fin 2) = 0 ∧ win0_4.index t (1 : Fin 2) = 0 :=
  (by decide +kernel : ∀ t : Fin grid0.N, _)
theorem idx_bo : ∀ t : Fin cfg0.N, win0_5.index t (0 : Fin 2) = 0 ∧ win0_5.index t (1 : Fin 2) = 0 :=
  (by decide +kernel : ∀ t : Fin grid0.N, _)

/-! ## The arrays the weight and bias windows stage

Before the grid runs, the projection weights [128, 512] and the output weights [512, 890] are transposed, and the two bias
vectors are reshaped to one-row matrices. -/

/-- The projection weights' window stages their transpose, [512, 128]. -/
theorem V_wpT (c : Dev nD) : (V m c main_v0 : S512x128.Idx → EReal)
    = transpose S512x128 [1, 0] (m ((c : Thread nD τ).loc main_arg2)) transposes_S128x512_S512x128_1_0 := by
  dsimp only [Gen.V, Gen.hostOps0]; after_results

/-- The output weights' window stages their transpose, [890, 512]. -/
theorem V_woT (c : Dev nD) : (V m c main_v1 : S890x512.Idx → EReal)
    = transpose S890x512 [1, 0] (m ((c : Thread nD τ).loc main_arg4)) transposes_S512x890_S890x512_1_0 := by
  dsimp only [Gen.V, Gen.hostOps0]; after_results

/-- The projection bias's window stages it as a [1, 128] row. -/
theorem V_bpRow (c : Dev nD) : (V m c main_v2 : S1x128.Idx → EReal)
    = shapeCast S1x128 (m ((c : Thread nD τ).loc main_arg3)) shapeCasts_S128_S1x128 := by
  dsimp only [Gen.V, Gen.hostOps0]; after_results; rfl

/-- The output bias's window stages it as a [1, 512] row. -/
theorem V_boRow (c : Dev nD) : (V m c main_v3 : S1x512.Idx → EReal)
    = shapeCast S1x512 (m ((c : Thread nD τ).loc main_arg5)) shapeCasts_S512_S1x512 := by
  dsimp only [Gen.V, Gen.hostOps0]; after_results; rfl

/-! ## Each input block read at an index

A block's element sits in its array, on each axis, at the block coordinate times the block's extent plus the element's
own coordinate. -/

/-- Row `r` of the dense block at point `t` is batch row `b = 512 t + r` of the dense argument. -/
theorem dense_blk_apply (c : Dev nD) (t : Fin cfg0.N) (r k : Fin 512) (b : Fin 16384) (hb : b.val = 512 * t.val + r.val) :
    (iblk m c 0 t : Vec Ideal S512x512 .f32) (ix2 r k)
      = (m ((c : Thread nD τ).loc main_arg0) : S16384x512.Idx → EReal) (ix2 b k) := by
  obtain ⟨e0, e1⟩ := idx_dense t
  rw [← V_main_arg0 m c]
  unfold iblk
  rw [View.read_apply]
  show (V m c main_arg0 : S16384x512.Idx → EReal) _ = _
  refine congrArg _ (funext fun a => Fin.ext ?_)
  match a with
  | ⟨0, _⟩ => show win0_0.index t (0 : Fin 2) * 512 + 1 * r.val = b.val; omega
  | ⟨1, _⟩ => show win0_0.index t (1 : Fin 2) * 512 + 1 * k.val = k.val; omega

/-- Row `r` of the sparse block at point `t` is batch row `b = 512 t + r` of the sparse argument. -/
theorem sparse_blk_apply (c : Dev nD) (t : Fin cfg0.N) (r : Fin 512) (i : Fin 26) (e : Fin 128) (b : Fin 16384)
    (hb : b.val = 512 * t.val + r.val) :
    (iblk m c 1 t : Vec Ideal S512x26x128 .f32) (ix3 r i e)
      = (m ((c : Thread nD τ).loc main_arg1) : S16384x26x128.Idx → EReal) (ix3 b i e) := by
  obtain ⟨e0, e1, e2⟩ := idx_sparse t
  rw [← V_main_arg1 m c]
  unfold iblk
  rw [View.read_apply]
  show (V m c main_arg1 : S16384x26x128.Idx → EReal) _ = _
  refine congrArg _ (funext fun a => Fin.ext ?_)
  match a with
  | ⟨0, _⟩ => show win0_1.index t (0 : Fin 3) * 512 + 1 * r.val = b.val; omega
  | ⟨1, _⟩ => show win0_1.index t (1 : Fin 3) * 26 + 1 * i.val = i.val; omega
  | ⟨2, _⟩ => show win0_1.index t (2 : Fin 3) * 128 + 1 * e.val = e.val; omega

/-- The projection weights' block at (k, e) is the argument at (e, k), at every point. -/
theorem wp_blk_apply (c : Dev nD) (t : Fin cfg0.N) (k : Fin 512) (e : Fin 128) :
    (iblk m c 2 t : Vec Ideal S512x128 .f32) (ix2 k e)
      = (m ((c : Thread nD τ).loc main_arg2) : S128x512.Idx → EReal) (ix2 e k) := by
  obtain ⟨e0, e1⟩ := idx_wp t
  have hv : (iblk m c 2 t : Vec Ideal S512x128 .f32) (ix2 k e) = (V m c main_v0 : S512x128.Idx → EReal) (ix2 k e) := by
    unfold iblk
    rw [View.read_apply]
    show (V m c main_v0 : S512x128.Idx → EReal) _ = _
    refine congrArg _ (funext fun a => Fin.ext ?_)
    match a with
    | ⟨0, _⟩ => show win0_2.index t (0 : Fin 2) * 512 + 1 * k.val = k.val; omega
    | ⟨1, _⟩ => show win0_2.index t (1 : Fin 2) * 128 + 1 * e.val = e.val; omega
  rw [hv, V_wpT]
  refine transpose_apply _ _ _ _ _ fun b => ?_
  match b with
  | ⟨0, _⟩ => rfl
  | ⟨1, _⟩ => rfl

/-- The output weights' block at (k, o) is the argument at (o, k), at every point. -/
theorem wo_blk_apply (c : Dev nD) (t : Fin cfg0.N) (k : Fin 890) (o : Fin 512) :
    (iblk m c 4 t : Vec Ideal S890x512 .f32) (ix2 k o)
      = (m ((c : Thread nD τ).loc main_arg4) : S512x890.Idx → EReal) (ix2 o k) := by
  obtain ⟨e0, e1⟩ := idx_wo t
  have hv : (iblk m c 4 t : Vec Ideal S890x512 .f32) (ix2 k o) = (V m c main_v1 : S890x512.Idx → EReal) (ix2 k o) := by
    unfold iblk
    rw [View.read_apply]
    show (V m c main_v1 : S890x512.Idx → EReal) _ = _
    refine congrArg _ (funext fun a => Fin.ext ?_)
    match a with
    | ⟨0, _⟩ => show win0_4.index t (0 : Fin 2) * 890 + 1 * k.val = k.val; omega
    | ⟨1, _⟩ => show win0_4.index t (1 : Fin 2) * 512 + 1 * o.val = o.val; omega
  rw [hv, V_woT]
  refine transpose_apply _ _ _ _ _ fun b => ?_
  match b with
  | ⟨0, _⟩ => rfl
  | ⟨1, _⟩ => rfl

/-- The projection bias's one-row block at (0, e) is the argument at e, at every point. -/
theorem bp_blk_apply (c : Dev nD) (t : Fin cfg0.N) (e : Fin 128) :
    (iblk m c 3 t : Vec Ideal S1x128 .f32) (ix2 0 e)
      = (m ((c : Thread nD τ).loc main_arg3) : S128.Idx → EReal) (ix1 e) := by
  obtain ⟨e0, e1⟩ := idx_bp t
  have hv : (iblk m c 3 t : Vec Ideal S1x128 .f32) (ix2 0 e) = (V m c main_v2 : S1x128.Idx → EReal) (ix2 0 e) := by
    unfold iblk
    rw [View.read_apply]
    show (V m c main_v2 : S1x128.Idx → EReal) _ = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * e.val = e.val; omega
  rw [hv, V_bpRow]
  refine shapeCast_apply _ _ _ _ ?_
  show (S128.rowMajor (ix1 e)).val = (S1x128.rowMajor (ix2 0 e)).val
  rw [Shape.rowMajor_val_one, Shape.rowMajor_val_two]
  show e.val = 0 * 128 + e.val
  omega

/-- The output bias's one-row block at (0, o) is the argument at o, at every point. -/
theorem bo_blk_apply (c : Dev nD) (t : Fin cfg0.N) (o : Fin 512) :
    (iblk m c 5 t : Vec Ideal S1x512 .f32) (ix2 0 o)
      = (m ((c : Thread nD τ).loc main_arg5) : S512.Idx → EReal) (ix1 o) := by
  obtain ⟨e0, e1⟩ := idx_bo t
  have hv : (iblk m c 5 t : Vec Ideal S1x512 .f32) (ix2 0 o) = (V m c main_v3 : S1x512.Idx → EReal) (ix2 0 o) := by
    unfold iblk
    rw [View.read_apply]
    show (V m c main_v3 : S1x512.Idx → EReal) _ = _
    refine congrArg _ (funext fun a => Fin.ext ?_)
    match a with
    | ⟨0, _⟩ => show win0_5.index t (0 : Fin 2) * 1 + 1 * 0 = 0; omega
    | ⟨1, _⟩ => show win0_5.index t (1 : Fin 2) * 512 + 1 * o.val = o.val; omega
  rw [hv, V_boRow]
  refine shapeCast_apply _ _ _ _ ?_
  show (S512.rowMajor (ix1 o)).val = (S1x512.rowMajor (ix2 0 o)).val
  rw [Shape.rowMajor_val_one, Shape.rowMajor_val_two]
  show o.val = 0 * 512 + o.val
  omega

/-! ## What a point writes back is its block of the specification's result -/

/-- Six blocks whose rows `r` are batch row `b` of the dense and sparse arrays, and whose weight and bias blocks are the
    transposed weights and the bias rows, give at (r, o) the specification's result at (b, o). -/
theorem outBlock_eq_G (X0 : Vec Ideal S512x512 .f32) (X1 : Vec Ideal S512x26x128 .f32) (X2 : Vec Ideal S512x128 .f32)
    (X3 : Vec Ideal S1x128 .f32) (X4 : Vec Ideal S890x512 .f32) (X5 : Vec Ideal S1x512 .f32)
    (A0 : FVec Ideal ⟨2, ![16384, 512]⟩ .f32) (A1 : FVec Ideal ⟨3, ![16384, 26, 128]⟩ .f32) (A2 : FVec Ideal ⟨2, ![128, 512]⟩ .f32)
    (A3 : FVec Ideal ⟨1, ![128]⟩ .f32) (A4 : FVec Ideal ⟨2, ![512, 890]⟩ .f32) (A5 : FVec Ideal ⟨1, ![512]⟩ .f32)
    (r o : Fin 512) (b : Fin 16384)
    (h0 : ∀ k, X0 (ix2 r k) = A0 (ix2 b k)) (h1 : ∀ i e, X1 (ix3 r i e) = A1 (ix3 b i e))
    (h2 : ∀ k e, X2 (ix2 k e) = A2 (ix2 e k)) (h3 : ∀ e, X3 (ix2 0 e) = A3 (ix1 e))
    (h4 : ∀ k o', X4 (ix2 k o') = A4 (ix2 o' k)) (h5 : ∀ o', X5 (ix2 0 o') = A5 (ix1 o')) :
    out0_6 (F := Ideal) X0 X1 X2 X3 X4 X5 (ix2 r o) = Cert.Spec.G A0 A1 A2 A3 A4 A5 (ix2 b o) := by
  rw [Cert.KernelIdeal.KBlock.out0_6_apply]
  unfold Cert.Spec.G
  simp only [h0, h1, h2, h3, h4, h5]

/-- Point `t` writes back block `t` of the specification's result: rows 512 t … 512 t + 511. -/
theorem flushed_eq (c : Dev nD) (t : Fin cfg0.N) :
    (dats m 0 c).flushed 6 t = ((cfg0.win 6).blk t).view.read (Elt Ideal) (result m c) := by
  rw [Value.flushed6]
  obtain ⟨e0, e1⟩ := idx_out t
  have ht : t.val < 32 := t.isLt
  funext y
  have hy0 : (y 0).val < 512 := (y 0).isLt
  have hy1 : (y 1).val < 512 := (y 1).isLt
  have hx : (cfg0.win 6).xinj (grid0.coords t) y = ix2 (⟨(y 0).val, hy0⟩ : Fin 512) (⟨(y 1).val, hy1⟩ : Fin 512) :=
    funext fun a => by match a with | ⟨0, _⟩ => rfl | ⟨1, _⟩ => rfl
  have hemb : ((cfg0.win 6).blk t).view.emb y
      = ix2 (⟨512 * t.val + (y 0).val, by omega⟩ : Fin 16384) (⟨(y 1).val, hy1⟩ : Fin 512) :=
    funext fun a => Fin.ext (by
      match a with
      | ⟨0, _⟩ => show win0_6.index t (0 : Fin 2) * 512 + 1 * (y 0).val = 512 * t.val + (y 0).val; omega
      | ⟨1, _⟩ => show win0_6.index t (1 : Fin 2) * 512 + 1 * (y 1).val = (y 1).val; omega)
  show out0_6 (F := Ideal) (iblk m c 0 t) (iblk m c 1 t) (iblk m c 2 t) (iblk m c 3 t) (iblk m c 4 t) (iblk m c 5 t)
      ((cfg0.win 6).xinj (grid0.coords t) y) = result m c (((cfg0.win 6).blk t).view.emb y)
  rw [hx, hemb]
  exact outBlock_eq_G (iblk m c 0 t) (iblk m c 1 t) (iblk m c 2 t) (iblk m c 3 t) (iblk m c 4 t) (iblk m c 5 t) _ _ _ _ _ _ _ _ _
    (fun k => dense_blk_apply m c t _ k _ rfl) (fun i e => sparse_blk_apply m c t _ i e _ rfl) (fun k e => wp_blk_apply m c t k e)
    (fun e => bp_blk_apply m c t e) (fun k o' => wo_blk_apply m c t k o') (fun o' => bo_blk_apply m c t o')

/-! ## The 32 blocks cover the result array -/

/-- An index of the result array is in point `t`'s block iff each coordinate is in the block's range on its axis. -/
theorem mem_blk (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v4).slice (win0_6.rect t)).set ↔ _
  rw [View.set_slice_whole, Rect.mem_set_unit]
  exact Iff.rfl

/-- Batch row `b` is in the block of point `b / 512`. -/
theorem cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  obtain ⟨t, ht⟩ : ∃ t : Fin cfg0.N, t.val = (i 0).val / 512 := ⟨⟨(i 0).val / 512, by omega⟩, rfl⟩
  obtain ⟨e0, e1⟩ := idx_out t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 512 ≤ (i 1).val ∧ (i 1).val < win0_6.index t (1 : Fin 2) * 512 + 512
    omega

/-- So the result array ends holding the specification's result. -/
theorem final (c : Dev nD) : (dats m 0 c).arrAt 6 cfg0.N = result m c :=
  (dats m 0 c).arrAt_eq_of_cover 6 (result m c) (fun t _ => flushed_eq m c t) cover

theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.RefDefs.lean ====
/-
  The reference's result as ONE term of its six arguments, with its parts named.

  The reference selects the lower triangle of the 27 × 27 product through a table of (row, column) pairs that it computes
  itself, from no input: the positions where a lower-triangular matrix of ones is non-zero, found by counting.  With the
  mask flattened to 729 flags, `csum` is the running count of set flags, `counts p` the number of positions whose running
  count is `p`, and the running sum `flatIdx p` of those the number of positions whose running count is at most `p`: the
  flat position of the (p+1)-st set flag.  Its quotient and remainder by 27 are the pair (`rowIdx`, `colIdx`), and `idxTbl`
  holds the 378 pairs.  `gram` is the 27 × 27 product of every batch row and `refOut` the result.
-/
import proofs.«178493_j49555332661502_1_alg».proof.Proof.Gen.ReferenceIdeal

noncomputable section

namespace Cert.ReferenceIdeal.RefDefs

open Cert.ReferenceIdeal Cert.ReferenceIdeal.Gen Idealize.ShloMosaic

variable {F : FTy → Type} [FloatOps F]

/-! ## The table of lower-triangle positions -/

/-- The all-zero 27 × 27 float matrix. -/
def zerosT : FVec F S27x27 .f32 := broadcastInDim S27x27 ![] bcast_S_S27x27 (constant S_ .f32 0x00000000#32)

/-- "row ≥ column" over the 27 × 27 positions. -/
def trilMask : IVec S27x27 1 :=
  cmpi .sge (addi (iotaInDim S27x27 32 0) (broadcastInDim S27x27 ![] bcast_S_S27x27 (constantI S_ 32 0#32))) (iotaInDim S27x27 32 1)

/-- The lower-triangular matrix of ones. -/
def trilOnes : FVec F S27x27 .f32 :=
  select trilMask (broadcastInDim S27x27 ![] bcast_S_S27x27 (constant S_ .f32 0x3F800000#32)) (zerosT (F := F))

/-- Where it is non-zero, flattened to 729 flags and widened to words. -/
def nzFlat : IVec S729 32 :=
  extui 32 (shapeCast S729 (cmpf .une (trilOnes (F := F)) (zerosT (F := F))) shapeCasts_S27x27_S729) natLt_1_32

/-- The running count of set flags. -/
def csum : IVec S729 32 :=
  Host.reduceWindow IntOp.addi ![729] ![1] ![728] ![0] (nzFlat (F := F)) (broadcastInDim S_ ![] bcast_S_S_ (constantI S_ 32 0#32))
    reduceWindows_S729_S729_w729s1p728_0 h_S_

/-- The running count clipped below at zero and normalised as an index into 378 slots (both leave it as it is). -/
def slotIdx : IVec S729 32 :=
  let clipd : IVec S729 32 := maxsi (broadcastInDim S729 ![] bcast_S_S729 (id (constantI S_ 32 0#32))) (csum (F := F))
  select (cmpi .slt clipd (broadcastInDim S729 ![] bcast_S_S729 (constantI S_ 32 0#32)))
    (addi clipd (broadcastInDim S729 ![] bcast_S_S729 (constantI S_ 32 378#32))) clipd

/-- How many positions have running count `p`, for `p` below 378. -/
def counts : IVec S378 32 :=
  Host.scatter scatter_S378_S729x1_S729_n_0_0_1 IntOp.addi (broadcastInDim S378 ![] bcast_S_S378 (constantI S_ 32 0#32))
    (broadcastInDim S729x1 ![0] bcast_S729_S729x1_0 (slotIdx (F := F))) (broadcastInDim S729 ![] bcast_S_S729 (constantI S_ 32 1#32))

/-- Their running sum: the flat position of the (p+1)-st set flag. -/
def flatIdx : IVec S378 32 :=
  Host.reduceWindow IntOp.addi ![378] ![1] ![377] ![0] (counts (F := F)) (broadcastInDim S_ ![] bcast_S_S_ (constantI S_ 32 0#32))
    reduceWindows_S378_S378_w378s1p377_0 h_S_

/-- The floored quotient by a scalar, as jax spells it: the truncated quotient, less one where the signs differ and the
    division is not exact. -/
def floorDiv (x : IVec S378 32) (y : IVec S_ 32) : IVec S378 32 :=
  let q : IVec S378 32 := Host.divsi x (broadcastInDim S378 ![] bcast_S_S378 y)
  select
    (andi (cmpi .ne (signi x) (broadcastInDim S378 ![] bcast_S_S378 (signi y)))
      (cmpi .ne (Host.remsi x (broadcastInDim S378 ![] bcast_S_S378 y)) (broadcastInDim S378 ![] bcast_S_S378 (constantI S_ 32 0#32))))
    (subi q (broadcastInDim S378 ![] bcast_S_S378 (constantI S_ 32 1#32))) q

/-- The floored remainder by a scalar, as jax spells it: the truncated remainder by the divisor (by one where the divisor is
    zero), plus the divisor where the remainder is non-zero and of the other sign. -/
def floorRem (x : IVec S378 32) (y : IVec S_ 32) : IVec S378 32 :=
  let d : IVec S_ 32 := select (cmpi .eq (id y) (constantI S_ 32 0#32)) (constantI S_ 32 1#32) (id y)
  let r : IVec S378 32 := Host.remsi x (broadcastInDim S378 ![] bcast_S_S378 d)
  select
    (andi (cmpi .ne (cmpi .slt r (broadcastInDim S378 ![] bcast_S_S378 (constantI S_ 32 0#32)))
        (broadcastInDim S378 ![] bcast_S_S378 (cmpi .slt d (constantI S_ 32 0#32))))
      (cmpi .ne r (broadcastInDim S378 ![] bcast_S_S378 (constantI S_ 32 0#32))))
    (addi r (broadcastInDim S378 ![] bcast_S_S378 d)) r

/-- A computed index normalised against an axis of extent 27: 27 is added where it is negative. -/
def wrap27 (r : IVec S378 32) : IVec S378 32 :=
  select (cmpi .slt r (broadcastInDim S378 ![] bcast_S_S378 (constantI S_ 32 0#32)))
    (addi r (broadcastInDim S378 ![] bcast_S_S378 (constantI S_ 32 27#32))) r

/-- The row of the (p+1)-st lower-triangle position. -/
def rowIdx : IVec S378 32 := wrap27 (floorRem (floorDiv (flatIdx (F := F)) (constantI S_ 32 27#32)) (constantI S_ 32 27#32))

/-- Its column. -/
def colIdx : IVec S378 32 := wrap27 (floorRem (floorDiv (flatIdx (F := F)) (constantI S_ 32 1#32)) (constantI S_ 32 27#32))

/-- The 378 (row, column) pairs. -/
def idxTbl : IVec S378x2 32 :=
  concatenate S378x2 1 [⟨S378x1, broadcastInDim S378x1 ![0] bcast_S378_S378x1_0 (rowIdx (F := F))⟩,
    ⟨S378x1, broadcastInDim S378x1 ![0] bcast_S378_S378x1_0 (colIdx (F := F))⟩] concatenates_S378x1_S378x1_S378x2_d1

/-! ## The float part -/

/-- Every batch row's 27 × 27 product: the projected dense part in front of the sparse embeddings, times its transpose. -/
def gram (x : FVec F S16384x512 .f32) (s : FVec F S16384x26x128 .f32) (Wp : FVec F S128x512 .f32) (bp : FVec F S128 .f32) :
    FVec F S16384x27x27 .f32 :=
  let T : FVec F S16384x27x128 .f32 :=
    concatenate S16384x27x128 1
      [⟨S16384x1x128, broadcastInDim S16384x1x128 ![0, 2] bcast_S16384x128_S16384x1x128_0_2
          (addf (Host.dotGeneral dot_S16384x512_S512x128_S16384x128_1_0_0_1_n_n none x (transpose S512x128 [1, 0] Wp transposes_S128x512_S512x128_1_0))
            (broadcastInDim S16384x128 ![0, 1] bcast_S1x128_S16384x128_0_1 (broadcastInDim S1x128 ![1] bcast_S128_S1x128_1 bp)))⟩,
        ⟨S16384x26x128, s⟩] concatenates_S16384x1x128_S16384x26x128_S16384x27x128_d1
  Host.dotGeneral dot_S16384x27x128_S16384x27x128_S16384x27x27_2_2_1_1_0_0 none T T

/-- The reference's result. -/
def refOut (x : FVec F S16384x512 .f32) (s : FVec F S16384x26x128 .f32) (Wp : FVec F S128x512 .f32) (bp : FVec F S128 .f32)
    (Wo : FVec F S512x890 .f32) (bo : FVec F S512 .f32) : FVec F S16384x512 .f32 :=
  addf
    (Host.dotGeneral dot_S16384x890_S890x512_S16384x512_1_0_0_1_n_n none
      (concatenate S16384x890 1
        [⟨S16384x512, x⟩,
          ⟨S16384x378, Host.gather gather_S16384x27x27_S378x2_S16384x378_0_12_n_n_12_1_1638411 (gram x s Wp bp) (idxTbl (F := F))⟩]
        concatenates_S16384x512_S16384x378_S16384x890_d1)
      (transpose S890x512 [1, 0] Wo transposes_S512x890_S890x512_1_0))
    (broadcastInDim S16384x512 ![0, 1] bcast_S1x512_S16384x512_0_1 (broadcastInDim S1x512 ![1] bcast_S512_S1x512_1 bo))

end Cert.ReferenceIdeal.RefDefs

end
-- ==== Proof.RefRun.lean ====
/-
  The reference program's run: every weakly fair execution ends with the result buffer at `RefDefs.refOut` of the
  arguments and the arguments unchanged.
-/
import proofs.«178493_j49555332661502_1_alg».proof.Proof.RefDefs
import Idealize.ShloMosaic.Lib.StableHlo.Run

noncomputable section

namespace Cert.ReferenceIdeal.RefRun

open Cert.ReferenceIdeal Cert.ReferenceIdeal.Gen Cert.ReferenceIdeal.RefDefs Idealize.ShloMosaic Idealize.ShloMosaic.TcCoe Idealize.SL.Sem Idealize.ShloMosaic.StableHlo

variable {F : FTy → Type} [FloatOps F]

/-! ## The operations

@main's 149 operations in order, every call replaced at its site by the callee's operations over the call's buffers, in
consecutive stretches. -/

/-- The float part up to the 27 × 27 products: the projection, the bias, the concatenation with the sparse embeddings, the
    product with the transpose (8 operations). -/
abbrev opsG : List (HloOp τ sig (Elt F)) :=
  [
    unary main_arg2 main_v0 ((transpose S512x128 [1, 0] · transposes_S128x512_S512x128_1_0) : (⟨S128x512, .f32⟩ : BufTy).Contents (Elt F) → (⟨S512x128, .f32⟩ : BufTy).Contents (Elt F)),
    binary main_arg0 main_v0 main_v1 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)),
    unary main_v4 main_v5 (broadcastInDim S16384x1x128 ![0, 2] bcast_S16384x128_S16384x1x128_0_2 : (⟨S16384x128, .f32⟩ : BufTy).Contents (Elt F) → (⟨S16384x1x128, .f32⟩ : BufTy).Contents (Elt F)),
    binary main_v5 main_arg1 main_v6 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    binary main_v6 main_v6 main_v7 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)) ]

/-- The matrix of ones and its lower triangle (the call of 9): 11 operations. -/
abbrev opsT : List (HloOp τ sig (Elt F)) :=
  [
    nullary main_cst (constant S_ .f32 0x3F800000#32),
    unary main_cst main_v8 (broadcastInDim S27x27 ![] bcast_S_S27x27 : (⟨S_, .f32⟩ : BufTy).Contents (Elt F) → (⟨S27x27, .f32⟩ : BufTy).Contents (Elt F)),
    TRef.nullary main_call0.v0 (iotaInDim S27x27 32 0),
    TRef.nullary main_call0.c (constantI S_ 32 0#32),
    TRef.unary main_call0.c main_call0.v1 (broadcastInDim S27x27 ![] bcast_S_S27x27),
    TRef.binary main_call0.v0 main_call0.v1 main_call0.v2 addi,
    TRef.nullary main_call0.v3 (iotaInDim S27x27 32 1),
    TRef.binary main_call0.v2 main_call0.v3 main_call0.v4 (cmpi .sge),
    TRef.nullary main_call0.cst (constant S_ .f32 0x00000000#32),
    TRef.unary main_call0.cst main_call0.v5 (broadcastInDim S27x27 ![] bcast_S_S27x27),
    TRef.ternary main_call0.v4 (.of main_v8 : TRef sig ⟨S27x27, .f32⟩) main_call0.v5 main_call0.v6 select ]

/-- The non-zero flags, flattened and widened, and their running count (the call of 2, and of 3 within it): 8 operations. -/
abbrev opsC : List (HloOp τ sig (Elt F)) :=
  [
    nullary main_cst_0 (constant S_ .f32 0x00000000#32),
    unary main_cst_0 main_v10 (broadcastInDim S27x27 ![] bcast_S_S27x27 : (⟨S_, .f32⟩ : BufTy).Contents (Elt F) → (⟨S27x27, .f32⟩ : BufTy).Contents (Elt F)),
    binary main_v9 main_v10 main_v11 (cmpf .une : (⟨S27x27, .f32⟩ : BufTy).Contents (Elt F) → (⟨S27x27, .f32⟩ : BufTy).Contents (Elt F) → (⟨S27x27, .i1⟩ : BufTy).Contents (Elt F)),
    TRef.reshape (.of main_v11 : TRef sig ⟨S27x27, .i1⟩) main_call1.v0 rfl shapeCasts_S27x27_S729,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![729] ![1] ![728] ![0] x v reduceWindows_S729_S729_w729s1p728_0 h_S_) ]

/-- The count clipped (the call of 3) and normalised as a slot, and the histogram of the slots by a scatter of ones: 17
    operations. -/
abbrev opsH : List (HloOp τ sig (Elt F)) :=
  [
    nullary main_c (constantI S_ 32 0#32),
    unary main_c main_v13 (broadcastInDim S378 ![] bcast_S_S378 : (⟨S_, .i32⟩ : BufTy).Contents (Elt F) → (⟨S378, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S729 ![] bcast_S_S729),
    TRef.binary main_call2.v1 (.of main_v12 : TRef sig ⟨S729, .i32⟩) main_call2.v2 maxsi,
    nullary main_c_2 (constantI S_ 32 0#32),
    unary main_c_2 main_v15 (broadcastInDim S729 ![] bcast_S_S729 : (⟨S_, .i32⟩ : BufTy).Contents (Elt F) → (⟨S729, .i32⟩ : BufTy).Contents (Elt F)),
    binary main_v14 main_v15 main_v16 (cmpi .slt : (⟨S729, .i32⟩ : BufTy).Contents (Elt F) → (⟨S729, .i32⟩ : BufTy).Contents (Elt F) → (⟨S729, .i1⟩ : BufTy).Contents (Elt F)),
    nullary main_c_3 (constantI S_ 32 378#32),
    unary main_c_3 main_v17 (broadcastInDim S729 ![] bcast_S_S729 : (⟨S_, .i32⟩ : BufTy).Contents (Elt F) → (⟨S729, .i32⟩ : BufTy).Contents (Elt F)),
    binary main_v14 main_v17 main_v18 (addi : (⟨S729, .i32⟩ : BufTy).Contents (Elt F) → (⟨S729, .i32⟩ : BufTy).Contents (Elt F) → (⟨S729, .i32⟩ : BufTy).Contents (Elt F)),
    ternary main_v16 main_v18 main_v14 main_v19 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v19 main_v20 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v21 (broadcastInDim S729 ![] bcast_S_S729 : (⟨S_, .i32⟩ : BufTy).Contents (Elt F) → (⟨S729, .i32⟩ : BufTy).Contents (Elt F)),
    ternary main_v13 main_v20 main_v21 main_v22 ((fun x i u => Host.scatter scatter_S378_S729x1_S729_n_0_0_1 IntOp.addi x i u) : (⟨S378, .i32⟩ : BufTy).Contents (Elt F) → (⟨S729x1, .i32⟩ : BufTy).Contents (Elt F) → (⟨S729, .i32⟩ : BufTy).Contents (Elt F) → (⟨S378, .i32⟩ : BufTy).Contents (Elt F)) ]

/-- The histogram's running sum (the call of 3). -/
abbrev opsS : List (HloOp τ sig (Elt F)) :=
  [
    TRef.nullary main_call3.call0.c (constantI S_ 32 0#32),
    TRef.unary main_call3.call0.c main_call3.call0.v0 (broadcastInDim S_ ![] bcast_S_S_),
    TRef.binary (.of main_v22 : TRef sig ⟨S378, .i32⟩) main_call3.call0.v0 main_call3.call0.v1 (fun x v => Host.reduceWindow IntOp.addi ![378] ![1] ![377] ![0] x v reduceWindows_S378_S378_w378s1p377_0 h_S_) ]

/-- The rows and the columns: the floored quotient by 27 (a call of 16) and its floored remainder by 27 (a call of 21), the
    floored quotient by 1 and its remainder by 27, each remainder normalised against the axis: 92 operations. -/
abbrev opsD : List (HloOp τ sig (Elt F)) :=
  [
    nullary main_c_5 (constantI S_ 32 27#32),
    TRef.unary (.of main_c_5 : TRef sig ⟨S_, .i32⟩) main_call4.v0 (broadcastInDim S378 ![] bcast_S_S378),
    TRef.binary (.of main_v23 : TRef sig ⟨S378, .i32⟩) main_call4.v0 main_call4.v1 Host.divsi,
    TRef.unary (.of main_v23 : TRef sig ⟨S378, .i32⟩) main_call4.v2 signi,
    TRef.unary (.of main_c_5 : TRef sig ⟨S_, .i32⟩) main_call4.v3 signi,
    TRef.unary main_call4.v3 main_call4.v4 (broadcastInDim S378 ![] bcast_S_S378),
    TRef.binary main_call4.v2 main_call4.v4 main_call4.v5 (cmpi .ne),
    TRef.unary (.of main_c_5 : TRef sig ⟨S_, .i32⟩) main_call4.v6 (broadcastInDim S378 ![] bcast_S_S378),
    TRef.binary (.of main_v23 : TRef sig ⟨S378, .i32⟩) main_call4.v6 main_call4.v7 Host.remsi,
    TRef.nullary main_call4.c (constantI S_ 32 0#32),
    TRef.unary main_call4.c main_call4.v8 (broadcastInDim S378 ![] bcast_S_S378),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S378 ![] bcast_S_S378),
    TRef.binary main_call4.v1 main_call4.v11 main_call4.v12 subi,
    TRef.ternary main_call4.v10 main_call4.v12 main_call4.v1 main_call4.call0.v0 select,
    nullary main_c_6 (constantI S_ 32 27#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S378 ![] bcast_S_S378),
    TRef.binary (.of main_v24 : TRef sig ⟨S378, .i32⟩) main_call5.v3 main_call5.v4 Host.remsi,
    TRef.nullary main_call5.c_1 (constantI S_ 32 0#32),
    TRef.unary main_call5.c_1 main_call5.v5 (broadcastInDim S378 ![] bcast_S_S378),
    TRef.binary main_call5.v4 main_call5.v5 main_call5.v6 (cmpi .ne),
    TRef.nullary main_call5.c_2 (constantI S_ 32 0#32),
    TRef.unary main_call5.c_2 main_call5.v7 (broadcastInDim S378 ![] bcast_S_S378),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S378 ![] bcast_S_S378),
    TRef.binary main_call5.v8 main_call5.v10 main_call5.v11 (cmpi .ne),
    TRef.binary main_call5.v11 main_call5.v6 main_call5.v12 andi,
    TRef.unary main_call5.call0.v0 main_call5.v13 (broadcastInDim S378 ![] bcast_S_S378),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S378 ![] bcast_S_S378),
    TRef.binary (.of main_v23 : TRef sig ⟨S378, .i32⟩) main_call6.v0 main_call6.v1 Host.divsi,
    TRef.unary (.of main_v23 : TRef sig ⟨S378, .i32⟩) main_call6.v2 signi,
    TRef.unary (.of main_c_7 : TRef sig ⟨S_, .i32⟩) main_call6.v3 signi,
    TRef.unary main_call6.v3 main_call6.v4 (broadcastInDim S378 ![] bcast_S_S378),
    TRef.binary main_call6.v2 main_call6.v4 main_call6.v5 (cmpi .ne),
    TRef.unary (.of main_c_7 : TRef sig ⟨S_, .i32⟩) main_call6.v6 (broadcastInDim S378 ![] bcast_S_S378),
    TRef.binary (.of main_v23 : TRef sig ⟨S378, .i32⟩) main_call6.v6 main_call6.v7 Host.remsi,
    TRef.nullary main_call6.c (constantI S_ 32 0#32),
    TRef.unary main_call6.c main_call6.v8 (broadcastInDim S378 ![] bcast_S_S378),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S378 ![] bcast_S_S378),
    TRef.binary main_call6.v1 main_call6.v11 main_call6.v12 subi,
    TRef.ternary main_call6.v10 main_call6.v12 main_call6.v1 main_call6.call0.v0 select,
    nullary main_c_8 (constantI S_ 32 27#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S378 ![] bcast_S_S378),
    TRef.binary (.of main_v26 : TRef sig ⟨S378, .i32⟩) main_call7.v3 main_call7.v4 Host.remsi,
    TRef.nullary main_call7.c_1 (constantI S_ 32 0#32),
    TRef.unary main_call7.c_1 main_call7.v5 (broadcastInDim S378 ![] bcast_S_S378),
    TRef.binary main_call7.v4 main_call7.v5 main_call7.v6 (cmpi .ne),
    TRef.nullary main_call7.c_2 (constantI S_ 32 0#32),
    TRef.unary main_call7.c_2 main_call7.v7 (broadcastInDim S378 ![] bcast_S_S378),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S378 ![] bcast_S_S378),
    TRef.binary main_call7.v8 main_call7.v10 main_call7.v11 (cmpi .ne),
    TRef.binary main_call7.v11 main_call7.v6 main_call7.v12 andi,
    TRef.unary main_call7.call0.v0 main_call7.v13 (broadcastInDim S378 ![] bcast_S_S378),
    TRef.binary main_call7.v4 main_call7.v13 main_call7.v14 addi,
    TRef.ternary main_call7.v12 main_call7.v14 main_call7.v4 main_call7.v15 select,
    nullary main_c_9 (constantI S_ 32 0#32),
    unary main_c_9 main_v28 (broadcastInDim S378 ![] bcast_S_S378 : (⟨S_, .i32⟩ : BufTy).Contents (Elt F) → (⟨S378, .i32⟩ : BufTy).Contents (Elt F)),
    binary main_v25 main_v28 main_v29 (cmpi .slt : (⟨S378, .i32⟩ : BufTy).Contents (Elt F) → (⟨S378, .i32⟩ : BufTy).Contents (Elt F) → (⟨S378, .i1⟩ : BufTy).Contents (Elt F)),
    nullary main_c_10 (constantI S_ 32 27#32),
    unary main_c_10 main_v30 (broadcastInDim S378 ![] bcast_S_S378 : (⟨S_, .i32⟩ : BufTy).Contents (Elt F) → (⟨S378, .i32⟩ : BufTy).Contents (Elt F)),
    binary main_v25 main_v30 main_v31 (addi : (⟨S378, .i32⟩ : BufTy).Contents (Elt F) → (⟨S378, .i32⟩ : BufTy).Contents (Elt F) → (⟨S378, .i32⟩ : BufTy).Contents (Elt F)),
    ternary main_v29 main_v31 main_v25 main_v32 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    nullary main_c_11 (constantI S_ 32 0#32),
    unary main_c_11 main_v33 (broadcastInDim S378 ![] bcast_S_S378 : (⟨S_, .i32⟩ : BufTy).Contents (Elt F) → (⟨S378, .i32⟩ : BufTy).Contents (Elt F)),
    binary main_v27 main_v33 main_v34 (cmpi .slt : (⟨S378, .i32⟩ : BufTy).Contents (Elt F) → (⟨S378, .i32⟩ : BufTy).Contents (Elt F) → (⟨S378, .i1⟩ : BufTy).Contents (Elt F)),
    nullary main_c_12 (constantI S_ 32 27#32),
    unary main_c_12 main_v35 (broadcastInDim S378 ![] bcast_S_S378 : (⟨S_, .i32⟩ : BufTy).Contents (Elt F) → (⟨S378, .i32⟩ : BufTy).Contents (Elt F)),
    binary main_v27 main_v35 main_v36 (addi : (⟨S378, .i32⟩ : BufTy).Contents (Elt F) → (⟨S378, .i32⟩ : BufTy).Contents (Elt F) → (⟨S378, .i32⟩ : BufTy).Contents (Elt F)),
    ternary main_v34 main_v36 main_v27 main_v37 (select : (⟨S378, .i1⟩ : BufTy).Contents (Elt F) → (⟨S378, .i32⟩ : BufTy).Contents (Elt F) → (⟨S378, .i32⟩ : BufTy).Contents (Elt F) → (⟨S378, .i32⟩ : BufTy).Contents (Elt F)) ]

/-- The table of pairs, the gather through it, the features, the output layer: 10 operations. -/
abbrev opsO : List (HloOp τ sig (Elt F)) :=
  [
    unary main_v32 main_v38 (broadcastInDim S378x1 ![0] bcast_S378_S378x1_0 : (⟨S378, .i32⟩ : BufTy).Contents (Elt F) → (⟨S378x1, .i32⟩ : BufTy).Contents (Elt F)),
    unary main_v37 main_v39 (broadcastInDim S378x1 ![0] bcast_S378_S378x1_0 : (⟨S378, .i32⟩ : BufTy).Contents (Elt F) → (⟨S378x1, .i32⟩ : BufTy).Contents (Elt F)),
    binary main_v38 main_v39 main_v40 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)),
    binary main_v7 main_v40 main_v41 ((fun x i => Host.gather gather_S16384x27x27_S378x2_S16384x378_0_12_n_n_12_1_1638411 x i) : (⟨S16384x27x27, .f32⟩ : BufTy).Contents (Elt F) → (⟨S378x2, .i32⟩ : BufTy).Contents (Elt F) → (⟨S16384x378, .f32⟩ : BufTy).Contents (Elt F)),
    binary main_arg0 main_v41 main_v42 ((fun a b => concatenate S16384x890 1 [⟨S16384x512, a⟩, ⟨S16384x378, b⟩] concatenates_S16384x512_S16384x378_S16384x890_d1) : (⟨S16384x512, .f32⟩ : BufTy).Contents (Elt F) → (⟨S16384x378, .f32⟩ : BufTy).Contents (Elt F) → (⟨S16384x890, .f32⟩ : BufTy).Contents (Elt F)),
    unary main_arg4 main_v43 ((transpose S890x512 [1, 0] · transposes_S512x890_S890x512_1_0) : (⟨S512x890, .f32⟩ : BufTy).Contents (Elt F) → (⟨S890x512, .f32⟩ : BufTy).Contents (Elt F)),
    binary main_v42 main_v43 main_v44 ((fun l r => Host.dotGeneral dot_S16384x890_S890x512_S16384x512_1_0_0_1_n_n none l r) : (⟨S16384x890, .f32⟩ : BufTy).Contents (Elt F) → (⟨S890x512, .f32⟩ : BufTy).Contents (Elt F) → (⟨S16384x512, .f32⟩ : BufTy).Contents (Elt F)),
    unary main_arg5 main_v45 (broadcastInDim S1x512 ![1] bcast_S512_S1x512_1 : (⟨S512, .f32⟩ : BufTy).Contents (Elt F) → (⟨S1x512, .f32⟩ : BufTy).Contents (Elt F)),
    unary main_v45 main_v46 (broadcastInDim S16384x512 ![0, 1] bcast_S1x512_S16384x512_0_1 : (⟨S1x512, .f32⟩ : BufTy).Contents (Elt F) → (⟨S16384x512, .f32⟩ : BufTy).Contents (Elt F)),
    binary main_v44 main_v46 main_v47 (addf : (⟨S16384x512, .f32⟩ : BufTy).Contents (Elt F) → (⟨S16384x512, .f32⟩ : BufTy).Contents (Elt F) → (⟨S16384x512, .f32⟩ : BufTy).Contents (Elt F)) ]

/-- The table of flat positions, from no input: 39 operations. -/
abbrev opsI : List (HloOp τ sig (Elt F)) := opsT ++ (opsC ++ (opsH ++ opsS))

/-- @main's operations. -/
abbrev ops : List (HloOp τ sig (Elt F)) := opsG ++ (opsI ++ (opsD ++ opsO))

set_option maxRecDepth 8192 in
set_option maxHeartbeats 4000000 in
/-- @main is that straight line: its two windows and the functions' bodies unfolded at their calls, sequencing reassociated. -/
theorem main_eq (c : Dev nD) : main (F := F) c = seq ops := by
  simp only [main, main_part0, main_part1, fn_tril.body, fn_cumsum.body, fn_cumsum_0.body, fn_clip.body, fn_cumsum_1.body,
    fn_cumsum_2.body, fn_floor_divide.body, fn_where.body, fn_remainder.body, fn_where_3.body, ops, opsI, opsG, opsT, opsC, opsH,
    opsS, opsD, opsO, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  List.forall_append.2 ⟨⟨
    unary_bufs_sub .., binary_bufs_sub .., unary_bufs_sub .., unary_bufs_sub .., binary_bufs_sub .., unary_bufs_sub ..,
    binary_bufs_sub .., binary_bufs_sub ..⟩,
  List.forall_append.2 ⟨List.forall_append.2 ⟨⟨
    nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub ..⟩,
  List.forall_append.2 ⟨⟨
    nullary_bufs_sub .., unary_bufs_sub .., binary_bufs_sub .., reshape_bufs_sub .., unary_bufs_sub .., nullary_bufs_sub ..,
    unary_bufs_sub .., binary_bufs_sub ..⟩,
  List.forall_append.2 ⟨⟨
    nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩, ⟨
    nullary_bufs_sub .., unary_bufs_sub .., binary_bufs_sub ..⟩⟩⟩⟩,
  List.forall_append.2 ⟨⟨
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub ..⟩, ⟨
    unary_bufs_sub .., unary_bufs_sub .., binary_bufs_sub .., binary_bufs_sub .., binary_bufs_sub .., unary_bufs_sub ..,
    binary_bufs_sub .., unary_bufs_sub .., unary_bufs_sub .., binary_bufs_sub ..⟩⟩⟩⟩

set_option maxRecDepth 8192 in
/-- Every operation determines its results. -/
theorem ops_fresh : ∀ op ∈ (ops : List (HloOp τ sig (Elt F))), op.fresh = ∅ := by
  have hG : ∀ op ∈ (opsG : List (HloOp τ sig (Elt F))), op.fresh = ∅ := by
    intro _ h; (repeat (cases h with | head => rfl | tail _ h => ?_)); exact nomatch h
  have hT : ∀ op ∈ (opsT : List (HloOp τ sig (Elt F))), op.fresh = ∅ := by
    intro _ h; (repeat (cases h with | head => rfl | tail _ h => ?_)); exact nomatch h
  have hC : ∀ op ∈ (opsC : List (HloOp τ sig (Elt F))), op.fresh = ∅ := by
    intro _ h; (repeat (cases h with | head => rfl | tail _ h => ?_)); exact nomatch h
  have hH : ∀ op ∈ (opsH : List (HloOp τ sig (Elt F))), op.fresh = ∅ := by
    intro _ h; (repeat (cases h with | head => rfl | tail _ h => ?_)); exact nomatch h
  have hS : ∀ op ∈ (opsS : List (HloOp τ sig (Elt F))), op.fresh = ∅ := by
    intro _ h; (repeat (cases h with | head => rfl | tail _ h => ?_)); exact nomatch h
  have hD : ∀ op ∈ (opsD : List (HloOp τ sig (Elt F))), op.fresh = ∅ := by
    intro _ h; (repeat (cases h with | head => rfl | tail _ h => ?_)); exact nomatch h
  have hO : ∀ op ∈ (opsO : List (HloOp τ sig (Elt F))), op.fresh = ∅ := by
    intro _ h; (repeat (cases h with | head => rfl | tail _ h => ?_)); exact nomatch h
  intro op h
  rcases List.mem_append.1 h with h | h
  · exact hG op h
  rcases List.mem_append.1 h with h | h
  · rcases List.mem_append.1 h with h | h
    · exact hT op h
    rcases List.mem_append.1 h with h | h
    · exact hC op h
    rcases List.mem_append.1 h with h | h
    · exact hH op h
    · exact hS op h
  rcases List.mem_append.1 h with h | h
  · exact hD op h
  · exact hO op h

/-! ## What each stretch leaves

Each stretch is read over an arbitrary valuation `V` of the buffers: the result it leaves is a term of what `V` holds at the
buffers the stretch reads, or — for the table of flat positions, which reads no argument — one of the closed terms of
Proof/RefDefs.lean given that its predecessor's buffer holds the previous one.  The running sums, the scatter and the gather
are kept folded throughout: every equation below is between terms with the same operations in the same places, up to the
identity transports of the calls' typed buffers and the unfolding of the named parts. -/

/-- The valuation after two stretches in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduceWindow Host.scatter Host.gather

set_option maxRecDepth 8192 in
set_option maxHeartbeats 1000000 in
/-- The first stretch leaves every batch row's product in its buffer. -/
theorem gram_eq (V : Valuation τ sig (Elt F)) :
    after opsG V (Proc.devRef .tc main_v7)
      = gram (V (Proc.devRef .tc main_arg0)) (V (Proc.devRef .tc main_arg1)) (V (Proc.devRef .tc main_arg2)) (V (Proc.devRef .tc main_arg3)) := by
  after_results
  unfold gram
  rfl

set_option maxRecDepth 8192 in
set_option maxHeartbeats 1000000 in
/-- The lower-triangular matrix of ones. -/
theorem tril_eq (V : Valuation τ sig (Elt F)) : after opsT V (Proc.devRef .tc main_v9) = trilOnes (F := F) := by
  after_results_simp
  simp only [TRef.toBuf, TRef.ofBuf, cast_eq]
  unfold trilOnes trilMask zerosT
  rfl

set_option maxRecDepth 8192 in
set_option maxHeartbeats 1000000 in
/-- The running count of its non-zero flags. -/
theorem csum_eq (V : Valuation τ sig (Elt F)) (h : V (Proc.devRef .tc main_v9) = trilOnes (F := F)) :
    after opsC V (Proc.devRef .tc main_v12) = csum (F := F) := by
  after_results_simp
  simp only [TRef.toBuf, TRef.ofBuf, cast_eq]
  rw [h]
  unfold csum nzFlat zerosT
  rfl

set_option maxRecDepth 8192 in
set_option maxHeartbeats 1000000 in
/-- The histogram of the counts. -/
theorem hist_eq (V : Valuation τ sig (Elt F)) (h : V (Proc.devRef .tc main_v12) = csum (F := F)) :
    after opsH V (Proc.devRef .tc main_v22) = counts (F := F) := by
  after_results_simp
  simp only [TRef.toBuf, TRef.ofBuf, cast_eq]
  rw [h]
  unfold counts slotIdx
  rfl

set_option maxRecDepth 8192 in
set_option maxHeartbeats 1000000 in
/-- Its running sum: the flat positions. -/
theorem sum_eq (V : Valuation τ sig (Elt F)) (h : V (Proc.devRef .tc main_v22) = counts (F := F)) :
    after opsS V (Proc.devRef .tc main_v23) = flatIdx (F := F) := by
  after_results_simp
  simp only [TRef.toBuf, TRef.ofBuf, cast_eq]
  rw [h]
  unfold flatIdx
  rfl

/-- The table of flat positions, whatever the buffers held before. -/
theorem flat_eq (V : Valuation τ sig (Elt F)) : after opsI V (Proc.devRef .tc main_v23) = flatIdx (F := F) := by
  show after (opsT ++ (opsC ++ (opsH ++ opsS))) V _ = _
  rw [after_app, after_app, after_app]
  exact sum_eq _ (hist_eq _ (csum_eq _ (tril_eq V)))

set_option maxRecDepth 8192 in
set_option maxHeartbeats 4000000 in
/-- The rows, read off whatever flat positions the buffer holds. -/
theorem row_eq (V : Valuation τ sig (Elt F)) :
    after opsD V (Proc.devRef .tc main_v32) = wrap27 (floorRem (floorDiv (V (Proc.devRef .tc main_v23)) (constantI S_ 32 27#32)) (constantI S_ 32 27#32)) := by
  after_results_simp
  simp only [TRef.toBuf, TRef.ofBuf, cast_eq]
  unfold wrap27 floorRem floorDiv
  rfl

set_option maxRecDepth 8192 in
set_option maxHeartbeats 4000000 in
/-- The columns. -/
theorem col_eq (V : Valuation τ sig (Elt F)) :
    after opsD V (Proc.devRef .tc main_v37) = wrap27 (floorRem (floorDiv (V (Proc.devRef .tc main_v23)) (constantI S_ 32 1#32)) (constantI S_ 32 27#32)) := by
  after_results_simp
  simp only [TRef.toBuf, TRef.ofBuf, cast_eq]
  unfold wrap27 floorRem floorDiv
  rfl

set_option maxRecDepth 8192 in
set_option maxHeartbeats 1000000 in
/-- The last stretch leaves the output layer applied to the features gathered through the pairs of the two index buffers. -/
theorem out_eq (V : Valuation τ sig (Elt F)) :
    after opsO V (Proc.devRef .tc main_v47)
      = addf
        (Host.dotGeneral dot_S16384x890_S890x512_S16384x512_1_0_0_1_n_n none
          (concatenate S16384x890 1
            [⟨S16384x512, V (Proc.devRef .tc main_arg0)⟩,
              ⟨S16384x378, Host.gather gather_S16384x27x27_S378x2_S16384x378_0_12_n_n_12_1_1638411 (V (Proc.devRef .tc main_v7))
                (concatenate S378x2 1 [⟨S378x1, broadcastInDim S378x1 ![0] bcast_S378_S378x1_0 (V (Proc.devRef .tc main_v32))⟩,
                  ⟨S378x1, broadcastInDim S378x1 ![0] bcast_S378_S378x1_0 (V (Proc.devRef .tc main_v37))⟩] concatenates_S378x1_S378x1_S378x2_d1)⟩]
            concatenates_S16384x512_S16384x378_S16384x890_d1)
          (transpose S890x512 [1, 0] (V (Proc.devRef .tc main_arg4)) transposes_S512x890_S890x512_1_0))
        (broadcastInDim S16384x512 ![0, 1] bcast_S1x512_S16384x512_0_1 (broadcastInDim S1x512 ![1] bcast_S512_S1x512_1 (V (Proc.devRef .tc main_arg5)))) := by
  after_results

/-! ### What each stretch leaves alone -/

set_option maxRecDepth 8192 in
set_option maxHeartbeats 1000000 in
/-- The first stretch writes none of the three arguments read after it. -/
theorem keepG (V : Valuation τ sig (Elt F)) :
    after opsG V (Proc.devRef .tc main_arg0) = V (Proc.devRef .tc main_arg0) ∧ after opsG V (Proc.devRef .tc main_arg4) = V (Proc.devRef .tc main_arg4)
      ∧ after opsG V (Proc.devRef .tc main_arg5) = V (Proc.devRef .tc main_arg5) := by
  refine ⟨?_, ?_, ?_⟩ <;> after_results_simp

set_option maxRecDepth 8192 in
set_option maxHeartbeats 4000000 in
/-- The table's stretch writes neither the products nor those arguments. -/
theorem keepI (V : Valuation τ sig (Elt F)) :
    after opsI V (Proc.devRef .tc main_v7) = V (Proc.devRef .tc main_v7) ∧ after opsI V (Proc.devRef .tc main_arg0) = V (Proc.devRef .tc main_arg0)
      ∧ after opsI V (Proc.devRef .tc main_arg4) = V (Proc.devRef .tc main_arg4) ∧ after opsI V (Proc.devRef .tc main_arg5) = V (Proc.devRef .tc main_arg5) := by
  refine ⟨?_, ?_, ?_, ?_⟩ <;> simp only [opsI, opsT, opsC, opsH, opsS, List.cons_append, List.nil_append] <;> after_results_simp

set_option maxRecDepth 8192 in
set_option maxHeartbeats 4000000 in
/-- Nor does the rows' and columns' stretch. -/
theorem keepD (V : Valuation τ sig (Elt F)) :
    after opsD V (Proc.devRef .tc main_v7) = V (Proc.devRef .tc main_v7) ∧ after opsD V (Proc.devRef .tc main_arg0) = V (Proc.devRef .tc main_arg0)
      ∧ after opsD V (Proc.devRef .tc main_arg4) = V (Proc.devRef .tc main_arg4) ∧ after opsD V (Proc.devRef .tc main_arg5) = V (Proc.devRef .tc main_arg5) := by
  refine ⟨?_, ?_, ?_, ?_⟩ <;> after_results_simp

set_option maxRecDepth 8192 in
set_option maxHeartbeats 16000000 in
/-- No operation writes an argument. -/
theorem args_eq (V : Valuation τ sig (Elt F)) :
    after ops V (Proc.devRef .tc main_arg0) = V (Proc.devRef .tc main_arg0) ∧ after ops V (Proc.devRef .tc main_arg1) = V (Proc.devRef .tc main_arg1)
      ∧ after ops V (Proc.devRef .tc main_arg2) = V (Proc.devRef .tc main_arg2) ∧ after ops V (Proc.devRef .tc main_arg3) = V (Proc.devRef .tc main_arg3)
      ∧ after ops V (Proc.devRef .tc main_arg4) = V (Proc.devRef .tc main_arg4) ∧ after ops V (Proc.devRef .tc main_arg5) = V (Proc.devRef .tc main_arg5) := by
  refine ⟨?_, ?_, ?_, ?_, ?_, ?_⟩ <;> simp only [ops, opsI, opsG, opsT, opsC, opsH, opsS, opsD, opsO, List.cons_append, List.nil_append] <;> after_results_simp

/-! ## The whole line -/

set_option maxRecDepth 8192 in
set_option maxHeartbeats 4000000 in
/-- After all of @main the result buffer holds `refOut` of the arguments. -/
theorem out_total (V : Valuation τ sig (Elt F)) :
    after ops V (Proc.devRef .tc main_v47)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  show after (opsG ++ (opsI ++ (opsD ++ opsO))) V _ = _
  rw [after_app, after_app, after_app, out_eq, row_eq, col_eq, flat_eq,
    (keepD _).1, (keepD _).2.1, (keepD _).2.2.1, (keepD _).2.2.2,
    (keepI _).1, (keepI _).2.1, (keepI _).2.2.1, (keepI _).2.2.2,
    (keepG _).1, (keepG _).2.1, (keepG _).2.2, gram_eq]
  rfl

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c =>
      ⟨(h c main_v47).trans (out_total (launchContents m c)),
        (h c main_arg0).trans (args_eq (launchContents m c)).1,
        (h c main_arg1).trans (args_eq (launchContents m c)).2.1,
        (h c main_arg2).trans (args_eq (launchContents m c)).2.2.1,
        (h c main_arg3).trans (args_eq (launchContents m c)).2.2.2.1,
        (h c main_arg4).trans (args_eq (launchContents m c)).2.2.2.2.1,
        (h c main_arg5).trans (args_eq (launchContents m c)).2.2.2.2.2⟩)
    (run_seq scopedRefs_eq scopedSems_eq defs main (fun _ => ops) main_eq (fun _ => ops_sub) m ρ (fun _ => ops_fresh))

end Cert.ReferenceIdeal.RefRun

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.LibScan.lean ====
/-
  Two readings of integer host operations at an index, over words that are small naturals.

  * A cumulative sum written as a windowed sum (a window as long as the array, padded in front by one less): entry `k`
    is the sum of the entries up to and including `k`.
  * An accumulating scatter of ones into zeros (a histogram): entry `p` is the number of updates whose index word is `p`.

  Both are stated for words given as `BitVec.ofNat 32` of naturals, so that no overflow condition is needed on the sums.
-/
import proofs.«178493_j49555332661502_1_alg».proof.Proof.LibGS
import Idealize.ShloMosaic.PureOps.Contract

noncomputable section

open scoped BigOperators

namespace Cert.LibScan

open Idealize.ShloMosaic Idealize.ShloMosaic.ValueIdx

/-! ## Rank-one shapes, and folds of word additions -/

/-- In a rank-one shape the row-major position of an index is its coordinate. -/
theorem rowMajor_symm_val1 {n : Nat} (m : Fin (⟨1, ![n]⟩ : Shape).numel) (a : Fin 1) :
    (((⟨1, ![n]⟩ : Shape).rowMajor.symm m) a).val = m.val := by
  obtain rfl : a = 0 := Subsingleton.elim _ _
  have h := Shape.rowMajor_val_one ((⟨1, ![n]⟩ : Shape).rowMajor.symm m)
  rw [Equiv.apply_symm_apply] at h
  exact h.symm

/-- A rank-one shape has as many elements as its one extent. -/
theorem numel1 (n : Nat) : (⟨1, ![n]⟩ : Shape).numel = n := by
  simp [Shape.numel]

/-- A left fold of word additions of small naturals is the word of the natural sum. -/
theorem foldl_addi_ofNat {ι : Type} (L : List ι) (c : ι → Nat) (a : Nat) :
    L.foldl (fun r m => IntOp.addi r (BitVec.ofNat 32 (c m))) (BitVec.ofNat 32 a)
      = BitVec.ofNat 32 (a + (L.map c).sum) := by
  induction L generalizing a with
  | nil => simp
  | cons m L ih =>
    rw [List.foldl_cons, List.map_cons, List.sum_cons]
    have : IntOp.addi (BitVec.ofNat 32 a) (BitVec.ofNat 32 (c m)) = BitVec.ofNat 32 (a + c m) := by
      show BitVec.ofNat 32 a + BitVec.ofNat 32 (c m) = _
      rw [BitVec.ofNat_add]
    rw [this, ih, Nat.add_assoc]

/-- A function on `Fin n` continued by zero to all naturals. -/
def ext0 {n : Nat} (f : Fin n → Nat) (l : Nat) : Nat := if h : l < n then f ⟨l, h⟩ else 0

theorem ext0_val {n : Nat} (f : Fin n → Nat) (l : Fin n) : ext0 f l.val = f l := by
  unfold ext0
  rw [dif_pos l.isLt]

/-- One term of the windowed sum: window position `m` of the window at `k` reads entry `k + m - lo` when that is
    inside the array, and the initial value zero when it is padding. -/
theorem window_term {n lo : Nat} (x : IVec ⟨1, ![n]⟩ 32) (f : Fin n → Nat)
    (hx : ∀ l : Fin n, x (ix1 l) = BitVec.ofNat 32 (f l)) (q : Nat) (p : Fin 1 → Nat) (hp : p 0 = q) :
    (if hin : ∀ a : Fin 1, (![lo] : Fin 1 → Nat) a ≤ p a ∧ p a - (![lo] : Fin 1 → Nat) a < (⟨1, ![n]⟩ : Shape).size a then
        x (fun a => ⟨p a - (![lo] : Fin 1 → Nat) a, (hin a).2⟩) else 0#32)
      = BitVec.ofNat 32 (if lo ≤ q then ext0 f (q - lo) else 0) := by
  by_cases hc : lo ≤ q ∧ q - lo < n
  · have hin : ∀ a : Fin 1, (![lo] : Fin 1 → Nat) a ≤ p a ∧ p a - (![lo] : Fin 1 → Nat) a < (⟨1, ![n]⟩ : Shape).size a := by
      intro a
      obtain rfl : a = 0 := Subsingleton.elim _ _
      show lo ≤ p 0 ∧ p 0 - lo < n
      rw [hp]; exact hc
    rw [dif_pos hin, if_pos hc.1]
    have hidx : (fun a => (⟨p a - (![lo] : Fin 1 → Nat) a, (hin a).2⟩ : Fin ((⟨1, ![n]⟩ : Shape).size a)))
        = ix1 (⟨q - lo, hc.2⟩ : Fin n) := by
      funext a
      obtain rfl : a = 0 := Subsingleton.elim _ _
      refine Fin.ext ?_
      show p 0 - lo = q - lo
      rw [hp]
    rw [hidx, hx]
    unfold ext0
    rw [dif_pos hc.2]
  · have hin : ¬ ∀ a : Fin 1, (![lo] : Fin 1 → Nat) a ≤ p a ∧ p a - (![lo] : Fin 1 → Nat) a < (⟨1, ![n]⟩ : Shape).size a := by
      intro hin
      have h0 : lo ≤ p 0 ∧ p 0 - lo < n := hin 0
      rw [hp] at h0
      exact hc h0
    rw [dif_neg hin]
    by_cases h1 : lo ≤ q
    · rw [if_pos h1]
      unfold ext0
      rw [dif_neg (fun h2 => hc ⟨h1, h2⟩)]
    · rw [if_neg h1]

/-- THE RUNNING SUM: a windowed sum over a window of the array's own length `n`, stride one, padded in front by `n - 1`
    copies of the initial value zero, read at `k`, is the sum of the entries `0 … k`. -/
theorem cumsum_ofNat {n lo : Nat} (hlo : lo + 1 = n) (x : IVec ⟨1, ![n]⟩ 32) (f : Fin n → Nat)
    (hx : ∀ l : Fin n, x (ix1 l) = BitVec.ofNat 32 (f l)) (init : IVec ⟨0, ![]⟩ 32) (hinit : init ix0 = 0#32)
    (h : (⟨1, ![n]⟩ : Shape).ReduceWindows (![n] : Fin 1 → Nat) ![1] ![lo] ![0] ⟨1, ![n]⟩)
    (hu : 0 < (⟨0, ![]⟩ : Shape).numel) (k : Fin n) :
    Host.reduceWindow (s := ⟨1, ![n]⟩) (t := ⟨1, ![n]⟩) (u := ⟨0, ![]⟩) IntOp.addi ![n] ![1] ![lo] ![0] x init h hu (ix1 k)
      = BitVec.ofNat 32 (∑ l : Fin n, if l.val ≤ k.val then f l else 0) := by
  unfold Host.reduceWindow
  have hv : init (Shape.Idx.first hu) = BitVec.ofNat 32 0 := by
    rw [eq_ix0 (Shape.Idx.first hu), hinit]
  simp only [hv]
  -- every term of the fold is the word of a natural
  have hstep : (fun (r : BitVec 32) (m : Fin (⟨1, ![n]⟩ : Shape).numel) =>
        IntOp.addi r
          (if hin : ∀ a : Fin 1, (![lo] : Fin 1 → Nat) a
                ≤ ((ix1 k (a.cast h.1.symm)).val * (![1] : Fin 1 → Nat) a + ((⟨1, ![n]⟩ : Shape).rowMajor.symm m a).val)
              ∧ ((ix1 k (a.cast h.1.symm)).val * (![1] : Fin 1 → Nat) a + ((⟨1, ![n]⟩ : Shape).rowMajor.symm m a).val)
                  - (![lo] : Fin 1 → Nat) a < (⟨1, ![n]⟩ : Shape).size a then
            x (fun a => ⟨((ix1 k (a.cast h.1.symm)).val * (![1] : Fin 1 → Nat) a + ((⟨1, ![n]⟩ : Shape).rowMajor.symm m a).val)
                  - (![lo] : Fin 1 → Nat) a, (hin a).2⟩)
          else 0#32))
      = fun r m => IntOp.addi r (BitVec.ofNat 32 (if lo ≤ k.val + m.val then ext0 f (k.val + m.val - lo) else 0)) := by
    funext r m
    congr 1
    refine window_term x f hx (k.val + m.val) _ ?_
    show k.val * 1 + ((⟨1, ![n]⟩ : Shape).rowMajor.symm m 0).val = k.val + m.val
    rw [rowMajor_symm_val1, Nat.mul_one]
  refine (congrArg (fun g => List.foldl g (BitVec.ofNat 32 0) (List.finRange (⟨1, ![n]⟩ : Shape).numel)) hstep).trans ?_
  show List.foldl (fun r (m : Fin (⟨1, ![n]⟩ : Shape).numel) =>
      IntOp.addi r (BitVec.ofNat 32 (if lo ≤ k.val + m.val then ext0 f (k.val + m.val - lo) else 0)))
    (BitVec.ofNat 32 0) (List.finRange (⟨1, ![n]⟩ : Shape).numel) = _
  rw [foldl_addi_ofNat, Nat.zero_add]
  congr 1
  -- the list sum is the sum over the window positions `0 … n - 1`
  rw [← Fin.sum_univ_def,
    Fin.sum_univ_eq_sum_range (fun m => if lo ≤ k.val + m then ext0 f (k.val + m - lo) else 0), numel1]
  have hR : (∑ l : Fin n, if l.val ≤ k.val then f l else 0)
      = ∑ l ∈ Finset.range n, if l ≤ k.val then ext0 f l else 0 := by
    rw [← Fin.sum_univ_eq_sum_range (fun l => if l ≤ k.val then ext0 f l else 0) n]
    refine Finset.sum_congr rfl fun l _ => ?_
    rw [ext0_val]
  rw [hR, ← Finset.sum_filter, ← Finset.sum_filter]
  -- window position `m` reads entry `k + m - lo`: a bijection from the positions past the padding onto `0 … k`
  have hk := k.isLt
  refine Finset.sum_nbij' (fun m => k.val + m - lo) (fun l => l + lo - k.val) ?_ ?_ ?_ ?_ ?_
  · intro a ha
    simp only [Finset.mem_filter, Finset.mem_range] at ha ⊢
    omega
  · intro a ha
    simp only [Finset.mem_filter, Finset.mem_range] at ha ⊢
    omega
  · intro a ha
    simp only [Finset.mem_filter, Finset.mem_range] at ha
    show k.val + a - lo + lo - k.val = a
    omega
  · intro a ha
    simp only [Finset.mem_filter, Finset.mem_range] at ha
    show k.val + (a + lo - k.val) - lo = a
    omega
  · intro a _
    rfl

/-! ## The histogram -/

/-- A small natural's word, read signed, is the natural. -/
theorem toInt_ofNat_small (a : Nat) (ha : a < 2 ^ 31) : (BitVec.ofNat 32 a).toInt = (a : ℤ) := by
  have hn : (BitVec.ofNat 32 a).toNat = a := by
    rw [BitVec.toNat_ofNat]
    exact Nat.mod_eq_of_lt (by omega)
  rw [BitVec.toInt_eq_toNat_of_lt (by rw [hn]; omega), hn]

/-- A left fold of array updates, read at one place `q` where every step adds the word of a natural: the start
    value plus the word of the sum. -/
theorem foldl_read {ι κ : Type} (step : (κ → BitVec 32) → ι → (κ → BitVec 32)) (q : κ) (c : ι → Nat)
    (hstep : ∀ r m, step r m q = r q + BitVec.ofNat 32 (c m)) (L : List ι) (r : κ → BitVec 32) :
    L.foldl step r q = r q + BitVec.ofNat 32 ((L.map c).sum) := by
  induction L generalizing r with
  | nil => simp
  | cons m L ih =>
    rw [List.foldl_cons, ih, hstep, List.map_cons, List.sum_cons, BitVec.add_assoc, BitVec.ofNat_add]

/-- THE HISTOGRAM: ones scattered with addition into zeros, read at `p`, count the updates whose index word is `p`
    (an index word outside the operand drops its update). -/
theorem scatter_count {N E : Nat} (wf : ScatterDims.WF ⟨1, ![N]⟩ ⟨2, ![E, 1]⟩ ⟨1, ![E]⟩ [] [0] [0] 1)
    (x0 : IVec ⟨1, ![N]⟩ 32) (hx0 : ∀ i, x0 i = 0#32) (idx : IVec ⟨2, ![E, 1]⟩ 32) (g : Fin E → Nat)
    (hg : ∀ k : Fin E, idx (ix2 k 0) = BitVec.ofNat 32 (g k)) (hgs : ∀ k, g k < 2 ^ 31)
    (upd : IVec ⟨1, ![E]⟩ 32) (hupd : ∀ i, upd i = 1#32) (p : Fin N) :
    Host.scatter (Cert.LibGS.vecScatterDims N E wf) IntOp.addi x0 idx upd (ix1 p)
      = BitVec.ofNat 32 (∑ k : Fin E, if g k = p.val then 1 else 0) := by
  unfold Host.scatter
  refine (foldl_read _ (ix1 p)
    (fun m : Fin (⟨1, ![E]⟩ : Shape).numel => ext0 (fun k : Fin E => if g k = p.val then 1 else 0) m.val) ?_ _ _).trans ?_
  · -- one step read at `p`: a one is added exactly when the update's index word is `p`
    intro r m
    beta_reduce
    set j := (⟨1, ![E]⟩ : Shape).rowMajor.symm m with hj
    have hj0 : (j 0).val = m.val := rowMajor_symm_val1 m 0
    have hgj : idx (ix2 (j 0) 0) = BitVec.ofNat 32 (g (j 0)) := hg (j 0)
    have hiff : (Cert.LibGS.vecScatterDims N E wf).resultIdx? j idx = some (ix1 p) ↔ g (j 0) = p.val := by
      rw [Cert.LibGS.vec_resultIdx?_iff, hgj, toInt_ofNat_small (g (j 0)) (hgs (j 0))]
      exact Int.ofNat_inj
    have hc : ext0 (fun k : Fin E => if g k = p.val then 1 else 0) m.val = if g (j 0) = p.val then 1 else 0 := by
      rw [← hj0]
      exact ext0_val (fun k : Fin E => if g k = p.val then 1 else 0) (j 0)
    rw [hc]
    by_cases hp : g (j 0) = p.val
    · rw [if_pos hp, hiff.2 hp]
      show (if ix1 p = ix1 p then IntOp.addi (r (ix1 p)) (upd j) else r (ix1 p)) = _
      rw [if_pos rfl, hupd]
      rfl
    · rw [if_neg hp]
      have hne : (Cert.LibGS.vecScatterDims N E wf).resultIdx? j idx ≠ some (ix1 p) := fun h => hp (hiff.1 h)
      cases hres : (Cert.LibGS.vecScatterDims N E wf).resultIdx? j idx with
      | none => simp
      | some i =>
        have hi : ix1 p ≠ i := fun h => hne (by rw [hres, h])
        show (if ix1 p = i then _ else r (ix1 p)) = _
        rw [if_neg hi]
        simp
  · rw [hx0, BitVec.zero_add]
    congr 1
    rw [← Fin.sum_univ_def,
      Fin.sum_univ_eq_sum_range (fun m => ext0 (fun k : Fin E => if g k = p.val then 1 else 0) m), numel1,
      ← Fin.sum_univ_eq_sum_range (fun m => ext0 (fun k : Fin E => if g k = p.val then 1 else 0) m) E]
    exact Finset.sum_congr rfl fun k _ => ext0_val _ k

end Cert.LibScan

end
-- ==== Proof.TriCount.lean ====
/-
  Counting the lower triangle of a 27 × 27 matrix through its flattened flags.

  Position `l` of the flattened matrix (row `l / 27`, column `l % 27`) is flagged when the column is at most the row.  `C k`
  is the number of flagged positions up to and including `k`; it is `r (r + 1) / 2 + min c r + 1` for `k` in row `r` and column
  `c` (the complete rows before, then the flagged part of the row), so it grows by at most one from a position to the next and
  reaches `p + 1` for the first time at the (p+1)-st flagged position, `27 · row + column` of the `p`-th entry of the triangle
  counted row after row.  Hence the positions whose count is at most `p` are exactly those before that position, and summing,
  over the counts `q ≤ p`, the number of positions whose count is `q` gives that position.
-/
import proofs.«178493_j49555332661502_1_alg».proof.Proof.Spec
import Mathlib.Algebra.BigOperators.Fin
import Mathlib.Algebra.BigOperators.Ring.Finset
import Mathlib.Algebra.BigOperators.Intervals

open scoped BigOperators

namespace Cert.TriCount

open Cert.Spec

/-- The flag of flattened position `l`: column at most row. -/
def flag (l : Nat) : Nat := if l % 27 ≤ l / 27 then 1 else 0

/-- The number of flagged positions up to and including `k`. -/
def C (k : Fin 729) : Nat := ∑ l : Fin 729, if l.val ≤ k.val then flag l.val else 0

/-- Its closed form. -/
def Ccl (k : Nat) : Nat := (k / 27) * (k / 27 + 1) / 2 + min (k % 27) (k / 27) + 1

/-- The flattened position of the `p`-th entry of the triangle. -/
def flat (p : Nat) : Nat := 27 * triRowN p + triColN p

theorem Ccl_step : ∀ k : Fin 728, Ccl k.val + flag (k.val + 1) = Ccl (k.val + 1) := by decide
theorem flat_lt : ∀ p : Fin 378, flat p.val < 729 := by decide
theorem Ccl_flat : ∀ p : Fin 378, Ccl (flat p.val) = p.val + 1 := by decide
theorem Ccl_before : ∀ p : Fin 378, flat p.val = 0 ∨ Ccl (flat p.val - 1) ≤ p.val := by decide

/-- The flagged positions below `n`. -/
def S (n : Nat) : Nat := ∑ l ∈ Finset.range n, flag l

theorem C_eq_S (k : Fin 729) : C k = S (k.val + 1) := by
  unfold C S
  rw [Fin.sum_univ_eq_sum_range (fun l => if l ≤ k.val then flag l else 0) 729, ← Finset.sum_filter]
  congr 1
  ext l
  simp only [Finset.mem_filter, Finset.mem_range]
  have := k.isLt
  omega

theorem S_eq_Ccl : ∀ k : Nat, k < 729 → S (k + 1) = Ccl k
  | 0, _ => by decide
  | k + 1, h => by
    have ih := S_eq_Ccl k (by omega)
    have hs : S (k + 1 + 1) = S (k + 1) + flag (k + 1) := by unfold S; rw [Finset.sum_range_succ]
    rw [hs, ih]
    exact Ccl_step ⟨k, by omega⟩

theorem C_eq_Ccl (k : Fin 729) : C k = Ccl k.val := (C_eq_S k).trans (S_eq_Ccl k.val k.isLt)

theorem Ccl_le_succ (k : Nat) (h : k + 1 < 729) : Ccl k ≤ Ccl (k + 1) := by
  have := Ccl_step ⟨k, by omega⟩
  simp only at this
  omega

theorem Ccl_mono : ∀ (a d : Nat), a + d < 729 → Ccl a ≤ Ccl (a + d)
  | _, 0, _ => Nat.le_refl _
  | a, d + 1, h => (Ccl_mono a d (by omega)).trans (Ccl_le_succ (a + d) (by omega))

/-- A position's count is at most `p` exactly when the position comes before the (p+1)-st flagged one. -/
theorem Ccl_le_iff (k : Fin 729) (p : Fin 378) : Ccl k.val ≤ p.val ↔ k.val < flat p.val := by
  have hk := k.isLt
  have hf := flat_lt p
  have h1 := Ccl_flat p
  constructor
  · intro h
    by_contra hn
    have hle : flat p.val ≤ k.val := by omega
    have := Ccl_mono (flat p.val) (k.val - flat p.val) (by omega)
    rw [Nat.add_sub_cancel' hle] at this
    omega
  · intro h
    rcases Ccl_before p with h0 | h2
    · omega
    · have := Ccl_mono k.val (flat p.val - 1 - k.val) (by omega)
      rw [show k.val + (flat p.val - 1 - k.val) = flat p.val - 1 by omega] at this
      omega

theorem C_pos (k : Fin 729) : 1 ≤ C k := by rw [C_eq_Ccl]; unfold Ccl; omega

theorem C_le (k : Fin 729) : C k ≤ 378 := by
  rw [C_eq_Ccl]
  have := Ccl_mono k.val (728 - k.val) (by have := k.isLt; omega)
  rw [show k.val + (728 - k.val) = 728 by have := k.isLt; omega] at this
  exact this.trans (by decide)

/-- Summing, over the counts `q ≤ p`, the number of positions whose count is `q`, gives the flattened position of the `p`-th
    entry of the triangle. -/
theorem count_eq (p : Fin 378) :
    (∑ q : Fin 378, if q.val ≤ p.val then (∑ k : Fin 729, if C k = q.val then 1 else 0) else 0)
      = 27 * triRowN p.val + triColN p.val := by
  have hsw : (∑ q : Fin 378, if q.val ≤ p.val then (∑ k : Fin 729, if C k = q.val then 1 else 0) else 0)
      = ∑ k : Fin 729, ∑ q : Fin 378, if q.val ≤ p.val ∧ C k = q.val then 1 else 0 := by
    rw [Finset.sum_comm]
    refine Finset.sum_congr rfl fun q _ => ?_
    by_cases hq : q.val ≤ p.val
    · simp only [hq, if_true, true_and]
    · simp only [hq, if_false, false_and, Finset.sum_const_zero]
  have hin : ∀ k : Fin 729, (∑ q : Fin 378, if q.val ≤ p.val ∧ C k = q.val then 1 else 0) = if k.val < flat p.val then 1 else 0 := by
    intro k
    have hiff := Ccl_le_iff k p
    rw [← C_eq_Ccl] at hiff
    by_cases h : C k ≤ p.val
    · rw [if_pos (hiff.mp h)]
      have hq0 : C k < 378 := by have := p.isLt; omega
      rw [Finset.sum_eq_single (⟨C k, hq0⟩ : Fin 378)]
      · simp only [h, true_and, if_true]
      · intro q _ hne
        rw [if_neg]
        rintro ⟨_, he⟩
        exact hne (Fin.ext he.symm)
      · intro hni; exact absurd (Finset.mem_univ _) hni
    · rw [if_neg (fun hlt => h (hiff.mpr hlt))]
      refine Finset.sum_eq_zero fun q _ => ?_
      rw [if_neg]
      rintro ⟨hq, he⟩
      omega
  rw [hsw, Finset.sum_congr rfl (fun k _ => hin k)]
  rw [Fin.sum_univ_eq_sum_range (fun l => if l < flat p.val then 1 else 0) 729, ← Finset.sum_filter]
  have hf := flat_lt p
  have : (Finset.range 729).filter (fun l => l < flat p.val) = Finset.range (flat p.val) := by
    ext l
    simp only [Finset.mem_filter, Finset.mem_range]
    omega
  rw [this, Finset.sum_const, Finset.card_range, smul_eq_mul, mul_one]
  rfl

end Cert.TriCount
-- ==== Proof.FlatIdx.lean ====
/-
  The reference's computed table of flat positions: entry `p` is the flat position 27·row + column of the (p+1)-st entry of
  the lower triangle counted row after row.

  The chain, read at an index: the flattened mask holds the flag "column ≤ row" at position 27·row + column; the running
  count of flags at `k` is `C k`; clipping and index normalisation leave it as it is; the histogram's entry `q` counts the
  positions whose running count is `q`; and its running sum at `p` counts the positions whose running count is at most
  `p`, which is 27·row + column of the (p+1)-st flag.
-/
import proofs.«178493_j49555332661502_1_alg».proof.Proof.RefDefs
import proofs.«178493_j49555332661502_1_alg».proof.Proof.LibScan
import proofs.«178493_j49555332661502_1_alg».proof.Proof.Spec
import proofs.«178493_j49555332661502_1_alg».proof.Proof.TriCount
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.FlatIdx

open Cert.TriCount Cert.ReferenceIdeal Cert.ReferenceIdeal.Gen Cert.ReferenceIdeal.RefDefs Idealize.ShloMosaic Idealize.ShloMosaic.ValueIdx

/-- The real one is not the real zero. -/
theorem une_one_zero : FloatOps.cmpf (F := Ideal) (φ := .f32) .une (Ideal.ofBits .f32 0x3F800000#32) (Ideal.ofBits .f32 0x00000000#32) = 1#1 := by
  simp [Ideal.cmpf_def, Ideal.ofBits, Ideal.ieee, Ideal.cmp]

/-- The real zero is not different from itself. -/
theorem une_zero_zero : FloatOps.cmpf (F := Ideal) (φ := .f32) .une (Ideal.ofBits .f32 0x00000000#32) (Ideal.ofBits .f32 0x00000000#32) = 0#1 := by
  simp [Ideal.cmpf_def, Ideal.ofBits, Ideal.ieee, Ideal.cmp]

open Idealize.ShloMosaic.StableHlo.Predicate in
/-- Signed "at most" between two words that are naturals below 2³¹ is "at most" between the naturals. -/
theorem sle_ofNat (a b : ℕ) (ha : a < 2 ^ 31) (hb : b < 2 ^ 31) :
    (BitVec.ofNat 32 a).sle (BitVec.ofNat 32 b) = decide (a ≤ b) := by
  simp only [BitVec.sle, toInt_ofNat_small a ha, toInt_ofNat_small b hb, Nat.cast_le]

open Idealize.ShloMosaic.StableHlo.Predicate in
/-- Signed "less than" likewise. -/
theorem slt_ofNat (a b : ℕ) (ha : a < 2 ^ 31) (hb : b < 2 ^ 31) :
    (BitVec.ofNat 32 a).slt (BitVec.ofNat 32 b) = decide (a < b) := by
  simp only [BitVec.slt, toInt_ofNat_small a ha, toInt_ofNat_small b hb, Nat.cast_lt]

/-- The mask at (r, c) is "c ≤ r". -/
theorem trilMask_apply (r c : Fin 27) : trilMask (ix2 r c) = BitVec.ofBool (decide (c.val ≤ r.val)) := by
  unfold trilMask
  show IntOp.cmpi .sge (IntOp.addi (BitVec.ofNat 32 r.val) (0#32)) (BitVec.ofNat 32 c.val) = _
  have hr := r.isLt
  have hc := c.isLt
  simp only [IntOp.cmpi, IntOp.addi, BitVec.add_zero]
  rw [sle_ofNat c.val r.val (by omega) (by omega)]

/-- The lower-triangular ones at (r, c), compared "not equal" with zero: one exactly where c ≤ r. -/
theorem nz_apply (r c : Fin 27) :
    cmpf .une (trilOnes (F := Ideal)) (zerosT (F := Ideal)) (ix2 r c) = BitVec.ofBool (decide (c.val ≤ r.val)) := by
  rw [cmpf_apply]
  unfold trilOnes
  rw [select_apply, trilMask_apply]
  show FloatOps.cmpf .une (Scalar.select (BitVec.ofBool (decide (c.val ≤ r.val))) (Ideal.ofBits .f32 0x3F800000#32) (Ideal.ofBits .f32 0x00000000#32)) (Ideal.ofBits .f32 0x00000000#32) = _
  by_cases h : c.val ≤ r.val
  · simp only [h, decide_true, BitVec.ofBool_true, Scalar.select, if_true]
    exact une_one_zero
  · simp only [h, decide_false, BitVec.ofBool_false, Scalar.select]
    rw [if_neg (by decide)]
    exact une_zero_zero

/-- The flags: position k = 27·r + c of the flattened mask holds the word 1 where c ≤ r, else the word 0. -/
theorem nzFlat_apply (k : Fin 729) : nzFlat (F := Ideal) (ix1 k) = BitVec.ofNat 32 (flag k.val) := by
  have hk := k.isLt
  unfold nzFlat
  rw [extui_apply]
  rw [shapeCast_apply _ _ (ix1 k) (ix2 (⟨k.val / 27, by omega⟩ : Fin 27) (⟨k.val % 27, by omega⟩ : Fin 27))
    (by rw [Shape.rowMajor_val_two, Shape.rowMajor_val_one]
        show k.val / 27 * 27 + k.val % 27 = k.val
        omega)]
  rw [nz_apply]
  unfold flag
  by_cases h : k.val % 27 ≤ k.val / 27
  · simp only [h, decide_true, if_true]; decide
  · simp only [h, decide_false, if_false]; decide

/-- The running count of flags up to and including position k. -/
theorem csum_apply (k : Fin 729) : csum (F := Ideal) (ix1 k) = BitVec.ofNat 32 (C k) := by
  unfold csum
  exact Cert.LibScan.cumsum_ofNat (n := 729) (lo := 728) rfl (nzFlat (F := Ideal)) (fun l => flag l.val) nzFlat_apply _ rfl _ _ k

/-- Clipping below at zero and adding 378 where negative both leave a running count as it is. -/
theorem slotIdx_apply (k : Fin 729) : slotIdx (F := Ideal) (ix1 k) = BitVec.ofNat 32 (C k) := by
  unfold slotIdx
  show Scalar.select (IntOp.cmpi .slt (IntOp.maxsi 0#32 (csum (F := Ideal) (ix1 k))) 0#32)
    (IntOp.addi (IntOp.maxsi 0#32 (csum (F := Ideal) (ix1 k))) 378#32) (IntOp.maxsi 0#32 (csum (F := Ideal) (ix1 k))) = _
  rw [csum_apply]
  have hC : C k < 2 ^ 31 := by have := C_le k; omega
  have h1 : IntOp.maxsi 0#32 (BitVec.ofNat 32 (C k)) = BitVec.ofNat 32 (C k) := by
    unfold IntOp.maxsi
    rw [show (0#32 : BitVec 32) = BitVec.ofNat 32 0 from rfl, slt_ofNat _ _ hC (by norm_num)]
    simp
  rw [h1]
  have h2 : IntOp.cmpi .slt (BitVec.ofNat 32 (C k)) 0#32 = 0#1 := by
    unfold IntOp.cmpi
    show BitVec.ofBool ((BitVec.ofNat 32 (C k)).slt 0#32) = 0#1
    rw [show (0#32 : BitVec 32) = BitVec.ofNat 32 0 from rfl, slt_ofNat _ _ hC (by norm_num)]
    simp
  rw [h2]
  unfold Scalar.select
  rw [if_neg (by decide)]

/-- The histogram of the running counts: entry q is the number of positions whose running count is q. -/
theorem counts_apply (q : Fin 378) :
    counts (F := Ideal) (ix1 q) = BitVec.ofNat 32 (∑ k : Fin 729, if C k = q.val then 1 else 0) := by
  unfold counts
  have hD : scatter_S378_S729x1_S729_n_0_0_1 = Cert.LibGS.vecScatterDims 378 729 scatter_S378_S729x1_S729_n_0_0_1_wf := rfl
  rw [hD]
  refine Cert.LibScan.scatter_count _ _ (fun _ => rfl) _ C (fun k => ?_) (fun k => by have := C_le k; omega) _ (fun _ => rfl) q
  have hk : ∀ a : Fin 1, ((ix1 k : S729.Idx) a).val
      = if S729.size a = 1 then 0 else ((ix2 k (0 : Fin 1) : S729x1.Idx) ((![0] : Fin 1 → Fin 2) a)).val := fun a =>
    match a with
    | ⟨0, _⟩ => by
      show k.val = if (729 : ℕ) = 1 then 0 else k.val
      rw [if_neg (by decide)]
  rw [broadcastInDim_apply _ _ _ (ix2 k (0 : Fin 1)) (ix1 k) hk]
  exact slotIdx_apply k

/-- The running sum of the histogram. -/
theorem flatIdx_apply (p : Fin 378) :
    flatIdx (F := Ideal) (ix1 p)
      = BitVec.ofNat 32 (∑ q : Fin 378, if q.val ≤ p.val then (∑ k : Fin 729, if C k = q.val then 1 else 0) else 0) := by
  unfold flatIdx
  exact Cert.LibScan.cumsum_ofNat (n := 378) (lo := 377) rfl (counts (F := Ideal))
    (fun q => ∑ k : Fin 729, if C k = q.val then 1 else 0) counts_apply _ rfl _ _ p

/-- The running sum of the histogram of the running count of the lower-triangle flags, at `p`, is the flat position of
    the (p+1)-st flag: 27 · row + column. -/
theorem flatIdx_eq (p : Fin 378) :
    flatIdx (F := Ideal) (ix1 p) = BitVec.ofNat 32 (27 * (Cert.Spec.triRow p).val + (Cert.Spec.triCol p).val) := by
  rw [flatIdx_apply, count_eq]
  rfl

end Cert.ReferenceIdeal.FlatIdx

end
-- ==== Proof.TrilGather.lean ====
/-
  The reference's gather through its computed table: column `p` of the gathered array is entry (row p, column p) of the
  27 × 27 product, the lower triangle counted row after row.

  Three steps.  (1) Every operation between the table of flat positions and the table of pairs acts word by word, so
  an entry of the row (column) table is one word function of the flat position's word; on the 729 words 0 … 728 that
  function is decided to be the quotient (remainder) by 27, and the flat position is 27 · row + column with
  column ≤ row < 27.  (2) The table of pairs is the two tables side by side, so its entry (p, 0) is the row word and
  (p, 1) the column word.  (3) The gather reads, at (b, p), the product's entry (b, r, c) with r and c the two words of
  pair p read signed and clamped to 0 … 26, which leaves a word below 27 as it is.
-/
import proofs.«178493_j49555332661502_1_alg».proof.Proof.FlatIdx
import Idealize.ShloMosaic.Lib.Pipeline.Value

noncomputable section

namespace Cert.ReferenceIdeal.TrilGather

open Cert.ReferenceIdeal Cert.ReferenceIdeal.Gen Cert.ReferenceIdeal.RefDefs Idealize.ShloMosaic Idealize.ShloMosaic.ValueIdx

/-! ## The floored quotient and remainder on one word -/

/-- The sign of a word, as a word: 0, −1 or 1. -/
def wSign (x : BitVec 32) : BitVec 32 := if x = 0 then 0 else if x.msb then -1 else 1

/-- The floored quotient of two words: the truncated quotient, less one where the signs differ and the division is not
    exact. -/
def wFloorDiv (x y : BitVec 32) : BitVec 32 :=
  Scalar.select
    (IntOp.andi (IntOp.cmpi .ne (wSign x) (wSign y)) (IntOp.cmpi .ne (IntOp.remsi .host x y) 0#32))
    (IntOp.subi (IntOp.divsi .host x y) 1#32) (IntOp.divsi .host x y)

/-- The floored remainder of two words: the truncated remainder by the divisor (by one where the divisor is zero), plus
    the divisor where the remainder is non-zero and of the other sign. -/
def wFloorRem (x y : BitVec 32) : BitVec 32 :=
  let d : BitVec 32 := Scalar.select (IntOp.cmpi .eq y 0#32) 1#32 y
  let r : BitVec 32 := IntOp.remsi .host x d
  Scalar.select
    (IntOp.andi (IntOp.cmpi .ne (IntOp.cmpi .slt r 0#32) (IntOp.cmpi .slt d 0#32)) (IntOp.cmpi .ne r 0#32))
    (IntOp.addi r d) r

/-- A word normalised against an extent of 27: 27 is added where it is negative. -/
def wWrap27 (r : BitVec 32) : BitVec 32 :=
  Scalar.select (IntOp.cmpi .slt r 0#32) (IntOp.addi r 27#32) r

/-- The floored quotient by a constant, read at `p`, is the word function of the entry at `p`. -/
theorem floorDiv_apply (x : IVec S378 32) (c : BitVec 32) (p : Fin 378) :
    floorDiv x (constantI S_ 32 c) (ix1 p) = wFloorDiv (x (ix1 p)) c := rfl

/-- The same for the floored remainder. -/
theorem floorRem_apply (x : IVec S378 32) (c : BitVec 32) (p : Fin 378) :
    floorRem x (constantI S_ 32 c) (ix1 p) = wFloorRem (x (ix1 p)) c := rfl

/-- The same for the normalisation. -/
theorem wrap27_apply (x : IVec S378 32) (p : Fin 378) : wrap27 x (ix1 p) = wWrap27 (x (ix1 p)) := rfl

/-- On a flat position below 729 the row chain (quotient by 27, remainder by 27, normalisation) gives the quotient
    by 27. -/
theorem rowWord : ∀ v : Fin 729,
    wWrap27 (wFloorRem (wFloorDiv (BitVec.ofNat 32 v.val) 27#32) 27#32) = BitVec.ofNat 32 (v.val / 27) := by
  decide +kernel

/-- On a flat position below 729 the column chain (quotient by 1, remainder by 27, normalisation) gives the remainder
    by 27. -/
theorem colWord : ∀ v : Fin 729,
    wWrap27 (wFloorRem (wFloorDiv (BitVec.ofNat 32 v.val) 1#32) 27#32) = BitVec.ofNat 32 (v.val % 27) := by
  decide +kernel

/-- A word below 27, read signed and clamped to 0 … 26, is itself. -/
theorem clampWord : ∀ i : Fin 27, min (BitVec.ofNat 32 i.val).toInt.toNat 26 = i.val := by decide

/-! ## The row and column tables -/

/-- The flat position of `p` is below 729, its quotient by 27 the row and its remainder the column. -/
theorem flat_facts (p : Fin 378) :
    27 * (Cert.Spec.triRow p).val + (Cert.Spec.triCol p).val < 729
      ∧ (27 * (Cert.Spec.triRow p).val + (Cert.Spec.triCol p).val) / 27 = (Cert.Spec.triRow p).val
      ∧ (27 * (Cert.Spec.triRow p).val + (Cert.Spec.triCol p).val) % 27 = (Cert.Spec.triCol p).val := by
  have hi := (Cert.Spec.triRow p).isLt
  have hj := (Cert.Spec.triCol p).isLt
  omega

/-- Entry `p` of the row table is the row of position `p`. -/
theorem rowIdx_eq (p : Fin 378) : rowIdx (F := Ideal) (ix1 p) = BitVec.ofNat 32 (Cert.Spec.triRow p).val := by
  obtain ⟨hlt, hq, _⟩ := flat_facts p
  show wWrap27 (wFloorRem (wFloorDiv (flatIdx (F := Ideal) (ix1 p)) 27#32) 27#32) = _
  rw [Cert.ReferenceIdeal.FlatIdx.flatIdx_eq p]
  have h := rowWord ⟨_, hlt⟩
  rw [hq] at h
  exact h

/-- Entry `p` of the column table is the column of position `p`. -/
theorem colIdx_eq (p : Fin 378) : colIdx (F := Ideal) (ix1 p) = BitVec.ofNat 32 (Cert.Spec.triCol p).val := by
  obtain ⟨hlt, _, hr⟩ := flat_facts p
  show wWrap27 (wFloorRem (wFloorDiv (flatIdx (F := Ideal) (ix1 p)) 1#32) 27#32) = _
  rw [Cert.ReferenceIdeal.FlatIdx.flatIdx_eq p]
  have h := colWord ⟨_, hlt⟩
  rw [hr] at h
  exact h

/-! ## The table of pairs -/

/-- A vector set up as a one-column matrix, read at (p, 0), is its entry `p`. -/
theorem bcastCol_apply (x : IVec S378 32) (p : Fin 378) :
    broadcastInDim S378x1 ![0] bcast_S378_S378x1_0 x (ix2 p 0) = x (ix1 p) := by
  refine broadcastInDim_apply _ _ x _ (ix1 p) fun a => ?_
  match a with
  | ⟨0, _⟩ => rfl

/-- Two columns side by side, read at (p, 0): the first column's entry `p`. -/
theorem pair_left (x y : IVec S378 32) (p : Fin 378) :
    concatenate S378x2 1 [⟨S378x1, broadcastInDim S378x1 ![0] bcast_S378_S378x1_0 x⟩,
      ⟨S378x1, broadcastInDim S378x1 ![0] bcast_S378_S378x1_0 y⟩] concatenates_S378x1_S378x1_S378x2_d1 (ix2 p 0)
      = x (ix1 p) := by
  refine (concatenate_pair_apply_left (t := S378x2) (s₁ := S378x1) (s₂ := S378x1) 1 _ _ _
    (ix2 p 0) rfl (ix2 p 0) fun b => ?_).trans (bcastCol_apply x p)
  match b with
  | ⟨0, _⟩ => rfl
  | ⟨1, _⟩ => rfl

/-- Two columns side by side, read at (p, 1): the second column's entry `p`. -/
theorem pair_right (x y : IVec S378 32) (p : Fin 378) :
    concatenate S378x2 1 [⟨S378x1, broadcastInDim S378x1 ![0] bcast_S378_S378x1_0 x⟩,
      ⟨S378x1, broadcastInDim S378x1 ![0] bcast_S378_S378x1_0 y⟩] concatenates_S378x1_S378x1_S378x2_d1 (ix2 p 1)
      = y (ix1 p) := by
  refine (concatenate_pair_apply_right (t := S378x2) (s₁ := S378x1) (s₂ := S378x1) 1 _ _ _
    (ix2 p 1) rfl rfl (ix2 p 0) (fun b hb => ?_) rfl).trans (bcastCol_apply y p)
  match b with
  | ⟨0, _⟩ => rfl
  | ⟨1, _⟩ => exact absurd rfl hb

/-- Pair `p`'s first word is the row of position `p`. -/
theorem idxTbl_row (p : Fin 378) : idxTbl (F := Ideal) (ix2 p 0) = BitVec.ofNat 32 (Cert.Spec.triRow p).val :=
  (pair_left _ _ p).trans (rowIdx_eq p)

/-- Pair `p`'s second word is the column of position `p`. -/
theorem idxTbl_col (p : Fin 378) : idxTbl (F := Ideal) (ix2 p 1) = BitVec.ofNat 32 (Cert.Spec.triCol p).val :=
  (pair_right _ _ p).trans (colIdx_eq p)

/-! ## The lookup of pairs, for any table -/

/-- The pair lookup's dimension numbers: operand `[B, 27, 27]`, pairs `[378, 2]`, result `[B, 378]`; the batch axis is
    taken whole, the two other axes are collapsed and addressed by the pair. -/
abbrev pairDims (wf : GatherDims.WF S16384x27x27 S378x2 S16384x378 [0] [1, 2] [] [1, 2] [] 1 ![16384, 1, 1]) :
    GatherDims S16384x27x27 S378x2 S16384x378 where
  offsetDims := [0]
  collapsedSliceDims := [1, 2]
  operandBatchingDims := []
  startIndicesBatchingDims := []
  startIndexMap := [1, 2]
  indexVectorDim := 1
  sliceSizes := ![16384, 1, 1]
  wf := wf

section Pair
variable (wf : GatherDims.WF S16384x27x27 S378x2 S16384x378 [0] [1, 2] [] [1, 2] [] 1 ![16384, 1, 1])

theorem mem1 : (1 : Fin 3) ∈ (pairDims wf).startIndexMap := show (1 : Fin 3) ∈ [(1 : Fin 3), 2] by decide
theorem mem2 : (2 : Fin 3) ∈ (pairDims wf).startIndexMap := show (2 : Fin 3) ∈ [(1 : Fin 3), 2] by decide

/-- On the row axis result (b, p) starts at the first word of pair `p`, read signed and clamped to 0 … 26 … -/
theorem pair_start1 {w : Nat} (idx : IVec S378x2 w) (b : Fin 16384) (p : Fin 378) :
    (pairDims wf).start (ix2 b p) idx 1 = min (idx (ix2 p 0)).toInt.toNat 26 := by
  unfold GatherDims.start
  rw [dif_pos (mem1 wf)]
  have hsi : (pairDims wf).siIdx (ix2 b p) ⟨List.idxOf (1 : Fin 3) (pairDims wf).startIndexMap,
      List.idxOf_lt_length_iff.2 (mem1 wf)⟩ = ix2 p 0 := by
    funext c; refine Fin.ext ?_
    match c with
    | ⟨0, _⟩ => rfl
    | ⟨1, _⟩ => rfl
  rw [hsi]
  rfl

/-- … on the column axis at the second word, likewise … -/
theorem pair_start2 {w : Nat} (idx : IVec S378x2 w) (b : Fin 16384) (p : Fin 378) :
    (pairDims wf).start (ix2 b p) idx 2 = min (idx (ix2 p 1)).toInt.toNat 26 := by
  unfold GatherDims.start
  rw [dif_pos (mem2 wf)]
  have hsi : (pairDims wf).siIdx (ix2 b p) ⟨List.idxOf (2 : Fin 3) (pairDims wf).startIndexMap,
      List.idxOf_lt_length_iff.2 (mem2 wf)⟩ = ix2 p 1 := by
    funext c; refine Fin.ext ?_
    match c with
    | ⟨0, _⟩ => rfl
    | ⟨1, _⟩ => rfl
  rw [hsi]
  rfl

/-- … and on the batch axis at 0. -/
theorem pair_start0 {w : Nat} (idx : IVec S378x2 w) (b : Fin 16384) (p : Fin 378) :
    (pairDims wf).start (ix2 b p) idx 0 = 0 := by
  unfold GatherDims.start
  rw [dif_neg]
  show (0 : Fin 3) ∉ [(1 : Fin 3), 2]
  decide

/-- The batch axis carries the result's batch coordinate … -/
theorem pair_off0 (b : Fin 16384) (p : Fin 378) : (pairDims wf).offCoord (ix2 b p) 0 = b.val := by
  unfold GatherDims.offCoord
  have hm : (0 : Fin 3) ∈ (pairDims wf).sKept := by
    show (0 : Fin 3) ∈ (List.finRange 3).filter (fun a => a ∉ [(1 : Fin 3), 2] ++ [])
    decide
  rw [dif_pos hm]
  rfl

/-- … and a collapsed axis none. -/
theorem pair_off_collapsed (j : S16384x378.Idx) (a : Fin 3) (ha : a ∈ [(1 : Fin 3), 2]) :
    (pairDims wf).offCoord j a = 0 :=
  GatherDims.offCoord_eq_zero _ _ _ (fun h => ((GatherDims.mem_sKept _ _).mp h).1 ha)

/-- THE PAIR LOOKUP READ AT (b, p): the operand's entry (b, r, c), `r` and `c` the two words of pair `p` read signed, a
    negative word sent to 0, clamped to 26. -/
theorem gather_pair_apply {α : Type} {w : Nat} (x : S16384x27x27.Idx → α) (idx : IVec S378x2 w)
    (b : Fin 16384) (p : Fin 378) :
    Host.gather (pairDims wf) x idx (ix2 b p)
      = x (ix3 b ⟨min (idx (ix2 p 0)).toInt.toNat 26, by omega⟩ ⟨min (idx (ix2 p 1)).toInt.toNat 26, by omega⟩) := by
  unfold Host.gather
  congr 1
  funext a
  refine Fin.ext ?_
  match a with
  | ⟨0, _⟩ =>
    show (pairDims wf).start (ix2 b p) idx 0 + (pairDims wf).batchCoord (ix2 b p) 0
      + (pairDims wf).offCoord (ix2 b p) 0 = b.val
    rw [GatherDims.batchCoord_eq_zero _ _ _ List.not_mem_nil, pair_start0, pair_off0]
    omega
  | ⟨1, _⟩ =>
    show (pairDims wf).start (ix2 b p) idx 1 + (pairDims wf).batchCoord (ix2 b p) 1
      + (pairDims wf).offCoord (ix2 b p) 1 = min (idx (ix2 p 0)).toInt.toNat 26
    rw [GatherDims.batchCoord_eq_zero _ _ _ List.not_mem_nil, pair_start1,
      pair_off_collapsed wf _ 1 (by decide)]
    rfl
  | ⟨2, _⟩ =>
    show (pairDims wf).start (ix2 b p) idx 2 + (pairDims wf).batchCoord (ix2 b p) 2
      + (pairDims wf).offCoord (ix2 b p) 2 = min (idx (ix2 p 1)).toInt.toNat 26
    rw [GatherDims.batchCoord_eq_zero _ _ _ List.not_mem_nil, pair_start2,
      pair_off_collapsed wf _ 2 (by decide)]
    rfl

end Pair

/-! ## The reference's gather -/

/-- Gathering the 27 × 27 products through the computed (row, column) table reads, at batch row `b` and position `p`,
    the product's entry at the `p`-th lower-triangle position. -/
theorem gather_idxTbl (Z : FVec Ideal S16384x27x27 .f32) (b : Fin 16384) (p : Fin 378) :
    Host.gather gather_S16384x27x27_S378x2_S16384x378_0_12_n_n_12_1_1638411 Z (idxTbl (F := Ideal)) (ix2 b p)
      = Z (ix3 b (Cert.Spec.triRow p) (Cert.Spec.triCol p)) := by
  show Host.gather (pairDims gather_S16384x27x27_S378x2_S16384x378_0_12_n_n_12_1_1638411_wf) Z (idxTbl (F := Ideal)) (ix2 b p) = _
  rw [gather_pair_apply]
  congr 1
  funext a
  refine Fin.ext ?_
  match a with
  | ⟨0, _⟩ => rfl
  | ⟨1, _⟩ =>
    show min (idxTbl (F := Ideal) (ix2 p 0)).toInt.toNat 26 = (Cert.Spec.triRow p).val
    rw [idxTbl_row]
    exact clampWord (Cert.Spec.triRow p)
  | ⟨2, _⟩ =>
    show min (idxTbl (F := Ideal) (ix2 p 1)).toInt.toNat 26 = (Cert.Spec.triCol p).val
    rw [idxTbl_col]
    exact clampWord (Cert.Spec.triCol p)

end Cert.ReferenceIdeal.TrilGather

end
-- ==== Proof.RefIsG.lean ====
/-
  The reference's result term, at the extended reals, is the specification's function of the six arguments.

  Every operation of the term is read at an index: the three matrix products are sums over the contracted coordinate,
  a transposed matrix swaps its coordinates, a bias copied down the rows reads the bias at the column, a two-piece
  concatenation reads the piece the coordinate falls in, and the gather reads the product at the lower triangle's
  positions.  Read so, the term at batch row b and output o is the specification's sum, term by term.
-/
import proofs.«178493_j49555332661502_1_alg».proof.Proof.TrilGather
import Idealize.ShloMosaic.PureOps.Ideal.Laws
import Idealize.ShloMosaic.Lib.ValueLayout

noncomputable section

open scoped BigOperators

namespace Cert.ReferenceIdeal.RefIsG

open Cert.ReferenceIdeal Cert.ReferenceIdeal.Gen Cert.ReferenceIdeal.RefDefs Idealize.ShloMosaic Idealize.ShloMosaic.ValueIdx

/-! ## The three matrix products at an index -/

/-- The projection's product [16384, 512] × [512, 128] at (b, e): the sum over the 512 contracted coordinates. -/
theorem dotP_apply (A : FVec Ideal S16384x512 .f32) (B : FVec Ideal S512x128 .f32) (b : Fin 16384) (e : Fin 128) :
    Host.dotGeneral (F := Ideal) dot_S16384x512_S512x128_S16384x128_1_0_0_1_n_n none A B (ix2 b e)
      = ∑ k : Fin 512, A (ix2 b k) * B (ix2 k e) := by
  show FloatOps.dotGeneral _ none _ A B (ix2 b e) = _
  rw [Ideal.dotGeneral_apply,
    ← Equiv.sum_comp (contrEquiv1 dot_S16384x512_S512x128_S16384x128_1_0_0_1_n_n 512 rfl rfl).symm]
  refine Finset.sum_congr rfl fun c _ => ?_
  have c2 := contrEquiv1_symm_val dot_S16384x512_S512x128_S16384x128_1_0_0_1_n_n 512 rfl rfl c
  have l2 : dot_S16384x512_S512x128_S16384x128_1_0_0_1_n_n.lhsIdx (ix2 b e) ((contrEquiv1 _ 512 rfl rfl).symm c) = ix2 b c := by
    funext ax; apply Fin.ext
    match ax with
    | ⟨0, _⟩ => simp [DotDims.lhsIdx, dot_S16384x512_S512x128_S16384x128_1_0_0_1_n_n]; rfl
    | ⟨1, _⟩ => simp [DotDims.lhsIdx, dot_S16384x512_S512x128_S16384x128_1_0_0_1_n_n]; exact c2
  have r2 : dot_S16384x512_S512x128_S16384x128_1_0_0_1_n_n.rhsIdx (ix2 b e) ((contrEquiv1 _ 512 rfl rfl).symm c) = ix2 c e := by
    funext ax; apply Fin.ext
    match ax with
    | ⟨0, _⟩ => simp [DotDims.rhsIdx, dot_S16384x512_S512x128_S16384x128_1_0_0_1_n_n]; exact c2
    | ⟨1, _⟩ => simp [DotDims.rhsIdx, dot_S16384x512_S512x128_S16384x128_1_0_0_1_n_n]; rfl
  rw [l2, r2]

/-- The batched product of the [16384, 27, 128] array with itself, contracted over the last axis, at (b, i, j): row i
    of batch row b times row j of the same batch row. -/
theorem dotZ_apply (A B : FVec Ideal S16384x27x128 .f32) (b : Fin 16384) (i j : Fin 27) :
    Host.dotGeneral (F := Ideal) dot_S16384x27x128_S16384x27x128_S16384x27x27_2_2_1_1_0_0 none A B (ix3 b i j)
      = ∑ e : Fin 128, A (ix3 b i e) * B (ix3 b j e) := by
  show FloatOps.dotGeneral _ none _ A B (ix3 b i j) = _
  rw [Ideal.dotGeneral_apply,
    ← Equiv.sum_comp (contrEquiv1 dot_S16384x27x128_S16384x27x128_S16384x27x27_2_2_1_1_0_0 128 rfl rfl).symm]
  refine Finset.sum_congr rfl fun c _ => ?_
  have c3 := contrEquiv1_symm_val dot_S16384x27x128_S16384x27x128_S16384x27x27_2_2_1_1_0_0 128 rfl rfl c
  have l3 : dot_S16384x27x128_S16384x27x128_S16384x27x27_2_2_1_1_0_0.lhsIdx (ix3 b i j) ((contrEquiv1 _ 128 rfl rfl).symm c) = ix3 b i c := by
    funext ax; apply Fin.ext
    match ax with
    | ⟨0, _⟩ => simp [DotDims.lhsIdx, dot_S16384x27x128_S16384x27x128_S16384x27x27_2_2_1_1_0_0]; rfl
    | ⟨1, _⟩ => simp [DotDims.lhsIdx, dot_S16384x27x128_S16384x27x128_S16384x27x27_2_2_1_1_0_0]; rfl
    | ⟨2, _⟩ => simp [DotDims.lhsIdx, dot_S16384x27x128_S16384x27x128_S16384x27x27_2_2_1_1_0_0]; exact c3
  have r3 : dot_S16384x27x128_S16384x27x128_S16384x27x27_2_2_1_1_0_0.rhsIdx (ix3 b i j) ((contrEquiv1 _ 128 rfl rfl).symm c) = ix3 b j c := by
    funext ax; apply Fin.ext
    match ax with
    | ⟨0, _⟩ => simp [DotDims.rhsIdx, dot_S16384x27x128_S16384x27x128_S16384x27x27_2_2_1_1_0_0]; rfl
    | ⟨1, _⟩ => simp [DotDims.rhsIdx, dot_S16384x27x128_S16384x27x128_S16384x27x27_2_2_1_1_0_0]; rfl
    | ⟨2, _⟩ => simp [DotDims.rhsIdx, dot_S16384x27x128_S16384x27x128_S16384x27x27_2_2_1_1_0_0]; exact c3
  rw [l3, r3]

/-- The output layer's product [16384, 890] × [890, 512] at (b, o): the sum over the 890 features. -/
theorem dotO_apply (A : FVec Ideal S16384x890 .f32) (B : FVec Ideal S890x512 .f32) (b : Fin 16384) (o : Fin 512) :
    Host.dotGeneral (F := Ideal) dot_S16384x890_S890x512_S16384x512_1_0_0_1_n_n none A B (ix2 b o)
      = ∑ k : Fin 890, A (ix2 b k) * B (ix2 k o) := by
  show FloatOps.dotGeneral _ none _ A B (ix2 b o) = _
  rw [Ideal.dotGeneral_apply,
    ← Equiv.sum_comp (contrEquiv1 dot_S16384x890_S890x512_S16384x512_1_0_0_1_n_n 890 rfl rfl).symm]
  refine Finset.sum_congr rfl fun c _ => ?_
  have c2 := contrEquiv1_symm_val dot_S16384x890_S890x512_S16384x512_1_0_0_1_n_n 890 rfl rfl c
  have l2 : dot_S16384x890_S890x512_S16384x512_1_0_0_1_n_n.lhsIdx (ix2 b o) ((contrEquiv1 _ 890 rfl rfl).symm c) = ix2 b c := by
    funext ax; apply Fin.ext
    match ax with
    | ⟨0, _⟩ => simp [DotDims.lhsIdx, dot_S16384x890_S890x512_S16384x512_1_0_0_1_n_n]; rfl
    | ⟨1, _⟩ => simp [DotDims.lhsIdx, dot_S16384x890_S890x512_S16384x512_1_0_0_1_n_n]; exact c2
  have r2 : dot_S16384x890_S890x512_S16384x512_1_0_0_1_n_n.rhsIdx (ix2 b o) ((contrEquiv1 _ 890 rfl rfl).symm c) = ix2 c o := by
    funext ax; apply Fin.ext
    match ax with
    | ⟨0, _⟩ => simp [DotDims.rhsIdx, dot_S16384x890_S890x512_S16384x512_1_0_0_1_n_n]; exact c2
    | ⟨1, _⟩ => simp [DotDims.rhsIdx, dot_S16384x890_S890x512_S16384x512_1_0_0_1_n_n]; rfl
  rw [l2, r2]

/-! ## The layout operations at an index -/

/-- The output bias [512] as a row [1, 512] copied down the 16384 rows reads the bias at the column. -/
theorem bias512_apply (v : FVec Ideal S512 .f32) (b : Fin 16384) (o : Fin 512) :
    broadcastInDim S16384x512 ![0, 1] bcast_S1x512_S16384x512_0_1 (broadcastInDim S1x512 ![1] bcast_S512_S1x512_1 v) (ix2 b o)
      = v (ix1 o) := by
  rw [broadcastInDim_apply ![0, 1] bcast_S1x512_S16384x512_0_1 _ (ix2 b o) (ix2 (0 : Fin 1) o)
      (fun a => match a with | ⟨0, _⟩ => rfl | ⟨1, _⟩ => rfl),
    broadcastInDim_apply ![1] bcast_S512_S1x512_1 v (ix2 (0 : Fin 1) o) (ix1 o) (fun a => match a with | ⟨0, _⟩ => rfl)]

/-- The projection's bias [128] likewise. -/
theorem bias128_apply (v : FVec Ideal S128 .f32) (b : Fin 16384) (e : Fin 128) :
    broadcastInDim S16384x128 ![0, 1] bcast_S1x128_S16384x128_0_1 (broadcastInDim S1x128 ![1] bcast_S128_S1x128_1 v) (ix2 b e)
      = v (ix1 e) := by
  rw [broadcastInDim_apply ![0, 1] bcast_S1x128_S16384x128_0_1 _ (ix2 b e) (ix2 (0 : Fin 1) e)
      (fun a => match a with | ⟨0, _⟩ => rfl | ⟨1, _⟩ => rfl),
    broadcastInDim_apply ![1] bcast_S128_S1x128_1 v (ix2 (0 : Fin 1) e) (ix1 e) (fun a => match a with | ⟨0, _⟩ => rfl)]

/-- The [16384, 128] projection given a middle unit axis reads the projection at the outer coordinates. -/
theorem unitRow_apply (P : FVec Ideal S16384x128 .f32) (b : Fin 16384) (u : Fin 1) (e : Fin 128) :
    broadcastInDim S16384x1x128 ![0, 2] bcast_S16384x128_S16384x1x128_0_2 P (ix3 b u e) = P (ix2 b e) :=
  broadcastInDim_apply ![0, 2] bcast_S16384x128_S16384x1x128_0_2 P (ix3 b u e) (ix2 b e)
    (fun a => match a with | ⟨0, _⟩ => rfl | ⟨1, _⟩ => rfl)

/-- The one projected row set in front of the 26 sparse rows: row 0 is the projected row, row i > 0 is sparse row i − 1. -/
theorem rows27_apply (P1 : FVec Ideal S16384x1x128 .f32) (s : FVec Ideal S16384x26x128 .f32) (b : Fin 16384) (i : Fin 27)
    (e : Fin 128) :
    concatenate S16384x27x128 1 [⟨S16384x1x128, P1⟩, ⟨S16384x26x128, s⟩] concatenates_S16384x1x128_S16384x26x128_S16384x27x128_d1
        (ix3 b i e)
      = if h : i.val = 0 then P1 (ix3 b (0 : Fin 1) e) else s (ix3 b ⟨i.val - 1, by have := i.isLt; omega⟩ e) := by
  by_cases h : i.val = 0
  · rw [dif_pos h]
    exact concatenate_pair_apply_left (1 : Fin S16384x27x128.rank) P1 s _ (ix3 b i e) rfl (ix3 b (0 : Fin 1) e)
      (fun a => match a with | ⟨0, _⟩ => rfl | ⟨1, _⟩ => h.symm | ⟨2, _⟩ => rfl)
  · rw [dif_neg h]
    exact concatenate_pair_apply_right (1 : Fin S16384x27x128.rank) P1 s _ (ix3 b i e) rfl rfl
      (ix3 b ⟨i.val - 1, by have := i.isLt; omega⟩ e)
      (fun a => match a with | ⟨0, _⟩ => fun _ => rfl | ⟨1, _⟩ => fun hne => absurd rfl hne | ⟨2, _⟩ => fun _ => rfl)
      (show i.val - 1 + 1 = i.val by omega)

/-- The 512 dense features with the 378 gathered ones behind them: feature k < 512 is the dense one, feature k ≥ 512
    gathered feature k − 512. -/
theorem feats890_apply (x : FVec Ideal S16384x512 .f32) (g : FVec Ideal S16384x378 .f32) (b : Fin 16384) (k : Fin 890) :
    concatenate S16384x890 1 [⟨S16384x512, x⟩, ⟨S16384x378, g⟩] concatenates_S16384x512_S16384x378_S16384x890_d1 (ix2 b k)
      = if h : k.val < 512 then x (ix2 b ⟨k.val, h⟩) else g (ix2 b ⟨k.val - 512, by have := k.isLt; omega⟩) := by
  by_cases h : k.val < 512
  · rw [dif_pos h]
    exact concatenate_pair_apply_left (1 : Fin S16384x890.rank) x g _ (ix2 b k) rfl (ix2 b ⟨k.val, h⟩)
      (fun a => match a with | ⟨0, _⟩ => rfl | ⟨1, _⟩ => rfl)
  · rw [dif_neg h]
    exact concatenate_pair_apply_right (1 : Fin S16384x890.rank) x g _ (ix2 b k) rfl rfl
      (ix2 b ⟨k.val - 512, by have := k.isLt; omega⟩)
      (fun a => match a with | ⟨0, _⟩ => fun _ => rfl | ⟨1, _⟩ => fun hne => absurd rfl hne)
      (show k.val - 512 + 512 = k.val by omega)

/-! ## The 27 × 27 product of every batch row -/

/-- The projected dense part at (b, e) is the specification's projection of batch row b. -/
theorem proj_apply (x : FVec Ideal S16384x512 .f32) (Wp : FVec Ideal S128x512 .f32) (bp : FVec Ideal S128 .f32)
    (b : Fin 16384) (e : Fin 128) :
    addf (Host.dotGeneral (F := Ideal) dot_S16384x512_S512x128_S16384x128_1_0_0_1_n_n none x
          (transpose S512x128 [1, 0] Wp transposes_S128x512_S512x128_1_0))
        (broadcastInDim S16384x128 ![0, 1] bcast_S1x128_S16384x128_0_1 (broadcastInDim S1x128 ![1] bcast_S128_S1x128_1 bp))
        (ix2 b e)
      = Cert.Spec.projR (fun k => x (ix2 b k)) (fun e k => Wp (ix2 e k)) (fun e => bp (ix1 e)) e := by
  rw [addf_apply, dotP_apply, bias128_apply]
  unfold Cert.Spec.projR
  refine congrArg (· + bp (ix1 e)) (Finset.sum_congr rfl fun k _ => ?_)
  rw [transpose_ix2_apply]

/-- The 27 × 128 matrix of every batch row: the reference's concatenation, named. -/
def rows27 (x : FVec Ideal S16384x512 .f32) (s : FVec Ideal S16384x26x128 .f32) (Wp : FVec Ideal S128x512 .f32)
    (bp : FVec Ideal S128 .f32) : FVec Ideal S16384x27x128 .f32 :=
  concatenate S16384x27x128 1
    [⟨S16384x1x128, broadcastInDim S16384x1x128 ![0, 2] bcast_S16384x128_S16384x1x128_0_2
        (addf (Host.dotGeneral (F := Ideal) dot_S16384x512_S512x128_S16384x128_1_0_0_1_n_n none x
            (transpose S512x128 [1, 0] Wp transposes_S128x512_S512x128_1_0))
          (broadcastInDim S16384x128 ![0, 1] bcast_S1x128_S16384x128_0_1 (broadcastInDim S1x128 ![1] bcast_S128_S1x128_1 bp)))⟩,
      ⟨S16384x26x128, s⟩] concatenates_S16384x1x128_S16384x26x128_S16384x27x128_d1

/-- It is, at (b, i, e), the specification's matrix of batch row b at (i, e). -/
theorem rows27_eq (x : FVec Ideal S16384x512 .f32) (s : FVec Ideal S16384x26x128 .f32) (Wp : FVec Ideal S128x512 .f32)
    (bp : FVec Ideal S128 .f32) (b : Fin 16384) (i : Fin 27) (e : Fin 128) :
    rows27 x s Wp bp (ix3 b i e)
      = Cert.Spec.TR (fun k => x (ix2 b k)) (fun i' e => s (ix3 b i' e)) (fun e k => Wp (ix2 e k)) (fun e => bp (ix1 e)) i e := by
  unfold rows27 Cert.Spec.TR
  rw [rows27_apply]
  by_cases h : i.val = 0
  · rw [dif_pos h, dif_pos h, unitRow_apply, proj_apply]
  · rw [dif_neg h, dif_neg h]

/-- The reference's product is, at (b, i, j), the specification's product of batch row b at (i, j). -/
theorem gram_apply (x : FVec Ideal S16384x512 .f32) (s : FVec Ideal S16384x26x128 .f32) (Wp : FVec Ideal S128x512 .f32)
    (bp : FVec Ideal S128 .f32) (b : Fin 16384) (i j : Fin 27) :
    gram (F := Ideal) x s Wp bp (ix3 b i j)
      = Cert.Spec.ZR (fun k => x (ix2 b k)) (fun i' e => s (ix3 b i' e)) (fun e k => Wp (ix2 e k)) (fun e => bp (ix1 e)) i j := by
  show Host.dotGeneral (F := Ideal) dot_S16384x27x128_S16384x27x128_S16384x27x27_2_2_1_1_0_0 none (rows27 x s Wp bp)
    (rows27 x s Wp bp) (ix3 b i j) = _
  rw [dotZ_apply]
  unfold Cert.Spec.ZR
  refine Finset.sum_congr rfl fun e _ => ?_
  rw [rows27_eq, rows27_eq]

/-! ## The result -/

/-- Index by index the reference computes the specification's batch-row result. -/
theorem refOut_eq_G (x : FVec Ideal S16384x512 .f32) (s : FVec Ideal S16384x26x128 .f32) (Wp : FVec Ideal S128x512 .f32)
    (bp : FVec Ideal S128 .f32) (Wo : FVec Ideal S512x890 .f32) (bo : FVec Ideal S512 .f32) :
    refOut (F := Ideal) x s Wp bp Wo bo = Cert.Spec.G x s Wp bp Wo bo := by
  funext j
  obtain ⟨b, o, rfl⟩ : ∃ (b : Fin 16384) (o : Fin 512), j = ix2 b o := ⟨j 0, j 1, eq_ix2 j⟩
  unfold refOut
  rw [addf_apply, dotO_apply, bias512_apply]
  show _ = Cert.Spec.rowOut (fun k => x (ix2 b k)) (fun i e => s (ix3 b i e)) (fun e k => Wp (ix2 e k)) (fun e => bp (ix1 e))
    (fun o k => Wo (ix2 o k)) (fun o => bo (ix1 o)) o
  unfold Cert.Spec.rowOut
  refine congrArg (· + bo (ix1 o)) (Finset.sum_congr rfl fun k _ => ?_)
  rw [transpose_ix2_apply, feats890_apply]
  unfold Cert.Spec.featR
  by_cases h : k.val < 512
  · rw [dif_pos h, dif_pos h]
  · rw [dif_neg h, dif_neg h, Cert.ReferenceIdeal.TrilGather.gather_idxTbl, gram_apply]

end Cert.ReferenceIdeal.RefIsG

end
-- ==== Proof.lean ====
/-
  The kernel and its reference compute, for each of the 16384 batch rows, the same function of the six arguments
  (Proof/Spec.lean): the dense features are projected to the embedding width and set in front of the 26 sparse
  embeddings; the resulting 27 × 128 matrix is multiplied by its transpose; the lower triangle of the product, diagonal
  included, counted row after row, is appended to the dense features; and the 890 features so obtained go through the
  output layer.  Over the extended reals a change of float format is the identity and both programs' matrix products are
  plain sums over the contracted axis, so no algebraic law is needed beyond reading every operation at an index: the two
  sides sum the same products over the same index sets.

  The kernel does this for 512 batch rows at each of its 32 grid points and selects the lower triangle by 27 row slices
  (Proof/KernelBlock.lean reads its output block at an index, Proof/KernelValue.lean assembles the array from the blocks).
  The reference works on all rows at once and selects the lower triangle by a gather through a table of (row, column)
  pairs that it computes itself — the non-zero positions of a lower-triangular matrix of ones, found by a running count, a
  histogram of it and a running sum of that (Proof/RefDefs.lean names the parts; Proof/LibScan.lean reads the running sum
  and the histogram at an index; Proof/FlatIdx.lean evaluates the table; Proof/TrilGather.lean reads the gather through
  it; Proof/RefIsG.lean reads the whole result at an index; Proof/RefRun.lean is the program's run).
-/
import proofs.«178493_j49555332661502_1_alg».proof.Defs
import proofs.«178493_j49555332661502_1_alg».proof.Proof.Gen.Kernel
import proofs.«178493_j49555332661502_1_alg».proof.Proof.Gen.Kernel.Skeleton
import proofs.«178493_j49555332661502_1_alg».proof.Proof.Gen.Kernel.Launch
import proofs.«178493_j49555332661502_1_alg».proof.Proof.Gen.Kernel.Points
import proofs.«178493_j49555332661502_1_alg».proof.Proof.Gen.Kernel.Frame
import proofs.«178493_j49555332661502_1_alg».proof.Proof.Gen.KernelIdeal
import proofs.«178493_j49555332661502_1_alg».proof.Proof.Gen.KernelIdeal.Skeleton
import proofs.«178493_j49555332661502_1_alg».proof.Proof.Gen.KernelIdeal.Launch
import proofs.«178493_j49555332661502_1_alg».proof.Proof.Gen.KernelIdeal.Points
import proofs.«178493_j49555332661502_1_alg».proof.Proof.Gen.KernelIdeal.Frame
import proofs.«178493_j49555332661502_1_alg».proof.Proof.Gen.KernelIdeal.Value
import proofs.«178493_j49555332661502_1_alg».proof.Proof.Gen.ReferenceIdeal
import proofs.«178493_j49555332661502_1_alg».proof.Proof.Gen.Pre_finite_inputs
import proofs.«178493_j49555332661502_1_alg».proof.Proof.KernelValue
import proofs.«178493_j49555332661502_1_alg».proof.Proof.RefRun
import proofs.«178493_j49555332661502_1_alg».proof.Proof.RefIsG
import Idealize.ShloMosaic.Adequacy
import Idealize.ShloMosaic.Init

noncomputable section

namespace Cert.Proof

open Idealize.ShloMosaic Idealize.ShloMosaic.TcCoe Idealize.SL.Sem

/-- The kernel's frame at the word level. -/
theorem frame_k : Cert.frame_Kernel := fun m ρ _ => Cert.Kernel.Gen.frame m ρ

/-- The kernel's frame at the extended reals. -/
theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the specification's function of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefIsG.refOut_eq_G, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
